-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S96x16x512 : Shape := ⟨3, ![96, 16, 512]⟩
abbrev S512x1024 : Shape := ⟨2, ![512, 1024]⟩
abbrev S512 : Shape := ⟨1, ![512]⟩
abbrev S128x512 : Shape := ⟨2, ![128, 512]⟩
abbrev S128 : Shape := ⟨1, ![128]⟩
abbrev S_ : Shape := ⟨0, ![]⟩

class Facts : Prop where
  bcast_S_S96x16x512 : S_.BroadcastsInDim S96x16x512 (![] : Fin 0 → Fin S96x16x512.rank)
  reducesTo_S96x16x512_S_d0_1_2 : S96x16x512.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x512 .f32) (main_arg5 : FVec F S128 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S128x512 .f32 := Host.absf main_arg4
  let main_cst_6 : FVec F S_ .f32 := constant S_ .f32 0x7F800000#32
  let main_v20 : FVec F S128x512 .f32 := broadcastInDim S128x512 ![] bcast_S_S128x512 main_cst_6
  let main_v21 : IVec S128x512 1 := cmpf .olt main_v19 main_v20
  let main_c_7 : IVec S_ 1 := constantI S_ 1 1#1
  let main_v22 : IVec S_ 1 := (fun x v => Host.reduce IntOp.andi x v reducesTo_S128x512_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S96x16x512 .f32) (main_arg1 : FVec F S96x16x512 .f32) (main_arg2 : FVec F S512x1024 .f32) (main_arg3 : FVec F S512 .f32) (main_arg4 : FVec F S128x512 .f32) (main_arg5 : FVec F S128 .f32) : IVec S_ 1 :=
  let main_v0 : FVec F S96x16x512 .f32 := Host.absf main_arg0
  let main_cst : FVec F S_ .f32 := constant S_ .f32 0x7F800000#32
  let main_v1 : FVec F S96x16x512 .f32 := broadcastInDim S96x16x512 ![] bcast_S_S96x16x512 main_cst
  let main_v2 : IVec S96x16x512 1 := cmpf .olt main_v0 main_v1
  let main_c : IVec S_ 1 := constantI S_ 1 1#1
  let main_v3 : IVec S_ 1 := (fun x v => Host.reduce IntOp.andi x v reducesTo_S96x16x512_S_d0_1_2 h_S_) main_v2 main_c
  let main_v4 : FVec F S96x16x512 .f32 := Host.absf main_arg1
  let main_cst_0 : FVec F S_ .f32 := constant S_ .f32 0x7F800000#32
  let main_v5 : FVec F S96x16x512 .f32 := broadcastInDim S96x16x512 ![] bcast_S_S96x16x512 main_cst_0
  let main_v6 : IVec S96x16x512 1 := cmpf .olt main_v4 main_v5
  let main_c_1 : IVec S_ 1 := constantI S_ 1 1#1
  let main_v7 : IVec S_ 1 := (fun x v => Host.reduce IntOp.andi x v reducesTo_S96x16x512_S_d0_1_2 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S96x16x512 : Shape := ⟨3, ![96, 16, 512]⟩
abbrev S512x1024 : Shape := ⟨2, ![512, 1024]⟩
abbrev S512 : Shape := ⟨1, ![512]⟩
abbrev S128x512 : Shape := ⟨2, ![128, 512]⟩
abbrev S128 : Shape := ⟨1, ![128]⟩
abbrev S512x512 : Shape := ⟨2, ![512, 512]⟩
abbrev S1536x512 : Shape := ⟨2, ![1536, 512]⟩
abbrev S16x96x512 : Shape := ⟨3, ![16, 96, 512]⟩
abbrev S96x16x96x129 : Shape := ⟨4, ![96, 16, 96, 129]⟩
abbrev S16x16x512 : Shape := ⟨3, ![16, 16, 512]⟩
abbrev S16x16x16x129 : Shape := ⟨4, ![16, 16, 16, 129]⟩
abbrev S16x16x1x512 : Shape := ⟨4, ![16, 16, 1, 512]⟩
abbrev S1x16x16x512 : Shape := ⟨4, ![1, 16, 16, 512]⟩
abbrev S16x16x16x512 : Shape := ⟨4, ![16, 16, 16, 512]⟩
abbrev S1x1x1x512 : Shape := ⟨4, ![1, 1, 1, 512]⟩
abbrev S4096x512 : Shape := ⟨2, ![4096, 512]⟩
abbrev S512x128 : Shape := ⟨2, ![512, 128]⟩
abbrev S4096x128 : Shape := ⟨2, ![4096, 128]⟩
abbrev S1x128 : Shape := ⟨2, ![1, 128]⟩
abbrev S16x16x16x128 : Shape := ⟨4, ![16, 16, 16, 128]⟩
abbrev S16x16x16x1 : Shape := ⟨4, ![16, 16, 16, 1]⟩
abbrev S16x16x16 : Shape := ⟨3, ![16, 16, 16]⟩

abbrev nBuf : Space → Nat
  | .hbm => 16
  | .vmem => 15
  | .smem => 0
  | _ => 0

abbrev bufTy : (tb : Table) → Fin (tcTables nBuf tb) → BufTy
  | .hbm, ⟨0, _⟩ => ⟨S96x16x512, .f32⟩
  | .hbm, ⟨1, _⟩ => ⟨S96x16x512, .f32⟩
  | .hbm, ⟨2, _⟩ => ⟨S512x1024, .f32⟩
  | .hbm, ⟨3, _⟩ => ⟨S512, .f32⟩
  | .hbm, ⟨4, _⟩ => ⟨S128x512, .f32⟩
  | .hbm, ⟨5, _⟩ => ⟨S128, .f32⟩
  | .hbm, ⟨6, _⟩ => ⟨S512x512, .f32⟩
  | .hbm, ⟨7, _⟩ => ⟨S512x512, .f32⟩
  | .hbm, ⟨8, _⟩ => ⟨S1536x512, .f32⟩
  | .hbm, ⟨9, _⟩ => ⟨S1536x512, .f32⟩
  | .hbm, ⟨10, _⟩ => ⟨S96x16x512, .f32⟩
  | .hbm, ⟨11, _⟩ => ⟨S16x96x512, .f32⟩
  | .hbm, ⟨12, _⟩ => ⟨S1536x512, .f32⟩
  | .hbm, ⟨13, _⟩ => ⟨S1536x512, .f32⟩
  | .hbm, ⟨14, _⟩ => ⟨S16x96x512, .f32⟩
  | .hbm, ⟨15, _⟩ => ⟨S96x16x96x129, .f32⟩
  | .local _ .vmem, ⟨0, _⟩ => ⟨S1536x512, .f32⟩
  | .local _ .vmem, ⟨1, _⟩ => ⟨S512x512, .f32⟩
  | .local _ .vmem, ⟨2, _⟩ => ⟨S1536x512, .f32⟩
  | .local _ .vmem, ⟨3, _⟩ => ⟨S1536x512, .f32⟩
  | .local _ .vmem, ⟨4, _⟩ => ⟨S512x512, .f32⟩
  | .local _ .vmem, ⟨5, _⟩ => ⟨S1536x512, .f32⟩
  | .local _ .vmem, ⟨6, _⟩ => ⟨S16x16x512, .f32⟩
  | .local _ .vmem, ⟨7, _⟩ => ⟨S16x16x512, .f32⟩
  | .local _ .vmem, ⟨8, _⟩ => ⟨S16x16x512, .f32⟩
  | .local _ .vmem, ⟨9, _⟩ => ⟨S16x16x512, .f32⟩
  | .local _ .vmem, ⟨10, _⟩ => ⟨S512, .f32⟩
  | .local _ .vmem, ⟨11, _⟩ => ⟨S128x512, .f32⟩
  | .local _ .vmem, ⟨12, _⟩ => ⟨S128, .f32⟩
  | .local _ .vmem, ⟨13, _⟩ => ⟨S16x16x16x129, .f32⟩
  | .local _ .vmem, ⟨14, _⟩ => ⟨S16x16x16x129, .f32⟩
  | _, _ => ⟨S96x16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc2_stg0_0 : Ref sig .tc := ⟨.vmem, 6, rfl⟩
abbrev cc2_stg0_1 : Ref sig .tc := ⟨.vmem, 7, rfl⟩
abbrev cc2_stg1_0 : Ref sig .tc := ⟨.vmem, 8, rfl⟩
abbrev cc2_stg1_1 : Ref sig .tc := ⟨.vmem, 9, rfl⟩
abbrev cc2_stg2_0 : Ref sig .tc := ⟨.vmem, 10, rfl⟩
abbrev cc2_stg3_0 : Ref sig .tc := ⟨.vmem, 11, rfl⟩
abbrev cc2_stg4_0 : Ref sig .tc := ⟨.vmem, 12, rfl⟩
abbrev cc2_stg5_0 : Ref sig .tc := ⟨.vmem, 13, rfl⟩
abbrev cc2_stg5_1 : Ref sig .tc := ⟨.vmem, 14, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5
abbrev cc2_sem0_0 : DmaSem sig := 6
abbrev cc2_sem0_1 : DmaSem sig := 7
abbrev cc2_sem1_0 : DmaSem sig := 8
abbrev cc2_sem1_1 : DmaSem sig := 9
abbrev cc2_sem2_0 : DmaSem sig := 10
abbrev cc2_sem3_0 : DmaSem sig := 11
abbrev cc2_sem4_0 : DmaSem sig := 12
abbrev cc2_sem5_0 : DmaSem sig := 13
abbrev cc2_sem5_1 : DmaSem sig := 14

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1536x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1536x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1536x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨2, ![6, 6], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc2_transform_2 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_5 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage2_0 : Fin 2 → Memref sig .tc .vmem S16x16x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S16x16x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S128x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S16x16x16x129 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

class Facts₀ : Prop where
  slices_S512x1024_S512x512_0_0 : S512x1024.Slices ![0, 0] S512x512
  slices_S512x1024_S512x512_0_512 : S512x1024.Slices ![0, 512] S512x512
  shapeCasts_S96x16x512_S1536x512 : S96x16x512.ShapeCasts S1536x512
  inb_S1536x512_S1536x512_0_0 : ∀ a, (![0, 0] : Fin 2 → Nat) a + S1536x512.size a ≤ S1536x512.size a
  h_S1536x512 : 0 < S1536x512.numel
  shapeCasts_S1536x512_S1536x512 : S1536x512.ShapeCasts S1536x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  transposes_S512x512_p1_0_S512x512 : S512x512.Transposes [1, 0] S512x512
  shapeCasts_S1536x512_S96x16x512 : S1536x512.ShapeCasts S96x16x512
  transposes_S96x16x512_S16x96x512_1_0_2 : S96x16x512.Transposes [1, 0, 2] S16x96x512
  shapeCasts_S16x96x512_S1536x512 : S16x96x512.ShapeCasts S1536x512
  shapeCasts_S1536x512_S16x96x512 : S1536x512.ShapeCasts S16x96x512
  inb_S16x16x512_S16x16x512_0_0_0 : ∀ a, (![0, 0, 0] : Fin 3 → Nat) a + S16x16x512.size a ≤ S16x16x512.size a
  h_S16x16x512 : 0 < S16x16x512.numel
  shapeCasts_S16x16x512_S16x16x512 : S16x16x512.ShapeCasts S16x16x512
  inb_S512_S512_0 : ∀ a, (![0] : Fin 1 → Nat) a + S512.size a ≤ S512.size a
  h_S512 : 0 < S512.numel
  shapeCasts_S16x16x512_S16x16x1x512 : S16x16x512.ShapeCasts S16x16x1x512
  shapeCasts_S16x16x512_S1x16x16x512 : S16x16x512.ShapeCasts S1x16x16x512
  broadcasts_S16x16x1x512_S16x16x16x512 : S16x16x1x512.Broadcasts S16x16x16x512
  broadcasts_S1x16x16x512_S16x16x16x512 : S1x16x16x512.Broadcasts S16x16x16x512
  shapeCasts_S512_S1x1x1x512 : S512.ShapeCasts S1x1x1x512
  broadcasts_S1x1x1x512_S16x16x16x512 : S1x1x1x512.Broadcasts S16x16x16x512
  shapeCasts_S16x16x16x512_S4096x512 : S16x16x16x512.ShapeCasts S4096x512
  inb_S128x512_S128x512_0_0 : ∀ a, (![0, 0] : Fin 2 → Nat) a + S128x512.size a ≤ S128x512.size a
  h_S128x512 : 0 < S128x512.numel
  transposes_S128x512_p1_0_S512x128 : S128x512.Transposes [1, 0] S512x128
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  shapeCasts_S4096x128_S16x16x16x128 : S4096x128.ShapeCasts S16x16x16x128
  concatenates_S16x16x16x1_S16x16x16x128_S16x16x16x129_d3 : Shape.Concatenates [S16x16x16x1, S16x16x16x128] S16x16x16x129 3
  reduces_S16x16x16x129_S16x16x16 : S16x16x16x129.Reduces [3] S16x16x16
  shapeCasts_S16x16x16_S16x16x16x1 : S16x16x16.ShapeCasts S16x16x16x1
  broadcasts_S16x16x16x1_S16x16x16x129 : S16x16x16x1.Broadcasts S16x16x16x129
  inb_S16x16x16x129_S16x16x16x129_0_0_0_0 : ∀ a, (![0, 0, 0, 0] : Fin 4 → Nat) a + S16x16x16x129.size a ≤ S16x16x16x129.size a
  h_S16x16x16x129 : 0 < S16x16x16x129.numel
  dot_S1536x512_S512x512_S1536x512_1_0_0_1_n_n_wf : DotDims.WF S1536x512 S512x512 S1536x512 [1] [0] [0] [1] [] []
  dot_S4096x512_S512x128_S4096x128_1_0_0_1_n_n_wf : DotDims.WF S4096x512 S512x128 S4096x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1536x512.size a ≤ S1536x512.size a
  hwx0_0 : ∀ i : grid0.Coords, EltTy.bits .f32 = 32 ∨ (Rect.block (s := S1536x512) S1536x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1536x512.size a ≤ S1536x512.size a
  hwx0_2 : ∀ i : grid0.Coords, EltTy.bits .f32 = 32 ∨ (Rect.block (s := S1536x512) S1536x512.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1536x512.size a ≤ S1536x512.size a
  hwx1_0 : ∀ i : grid1.Coords, EltTy.bits .f32 = 32 ∨ (Rect.block (s := S1536x512) S1536x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .f32 = 32 ∨ (Rect.block (s := S512x512) S512x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1536x512.size a ≤ S1536x512.size a
  hwx1_2 : ∀ i : grid1.Coords, EltTy.bits .f32 = 32 ∨ (Rect.block (s := S1536x512) S1536x512.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S16x16x512.size a ≤ S96x16x512.size a
  hwx2_0 : ∀ i : grid2.Coords, EltTy.bits .f32 = 32 ∨ (Rect.block (s := S96x16x512) S16x16x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S16x16x512.size a ≤ S16x96x512.size a
  hwx2_1 : ∀ i : grid2.Coords, EltTy.bits .f32 = 32 ∨ (Rect.block (s := S16x96x512) S16x16x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512.size a ≤ S512.size a
  hwx2_2 : ∀ i : grid2.Coords, EltTy.bits .f32 = 32 ∨ (Rect.block (s := S512) S512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x512.size a ≤ S128x512.size a
  hwx2_3 : ∀ i : grid2.Coords, EltTy.bits .f32 = 32 ∨ (Rect.block (s := S128x512) S128x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S16x16x16x129.size a ≤ S96x16x96x129.size a
  hwx2_5 : ∀ i : grid2.Coords, EltTy.bits .f32 = 32 ∨ (Rect.block (s := S96x16x96x129) S16x16x16x129.size (cc2_transform_5 i) (hinb2_5 i)).WholeWords (EltTy.packing .f32)

variable [Facts₀]

def dot_S1536x512_S512x512_S1536x512_1_0_0_1_n_n : DotDims S1536x512 S512x512 S1536x512 where
  lhsContracting := [1]
  rhsContracting := [0]
  lhsNonContracting := [0]
  rhsNonContracting := [1]
  lhsBatch := []
  rhsBatch := []
  wf := dot_S1536x512_S512x512_S1536x512_1_0_0_1_n_n_wf
def dot_S4096x512_S512x128_S4096x128_1_0_0_1_n_n : DotDims S4096x512 S512x128 S4096x128 where
  lhsContracting := [1]
  rhsContracting := [0]
  lhsNonContracting := [0]
  rhsNonContracting := [1]
  lhsBatch := []
  rhsBatch := []
  wf := dot_S4096x512_S512x128_S4096x128_1_0_0_1_n_n_wf

abbrev win0_0 : Pipeline.Window sig grid0 :=
  Pipeline.Window.ofSpec (Memref.whole main_v2) S1536x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1536x512.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v6) S1536x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1536x512.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v4) S16x16x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S16x16x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg4) S128x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg5) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v9) S16x16x16x129.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S96x16x512 : Shape := ⟨3, ![96, 16, 512]⟩
abbrev S512x1024 : Shape := ⟨2, ![512, 1024]⟩
abbrev S512 : Shape := ⟨1, ![512]⟩
abbrev S128x512 : Shape := ⟨2, ![128, 512]⟩
abbrev S128 : Shape := ⟨1, ![128]⟩
abbrev S512x512 : Shape := ⟨2, ![512, 512]⟩
abbrev S96x16x1x512 : Shape := ⟨4, ![96, 16, 1, 512]⟩
abbrev S16x96x512 : Shape := ⟨3, ![16, 96, 512]⟩
abbrev S1x16x96x512 : Shape := ⟨4, ![1, 16, 96, 512]⟩
abbrev S96x16x96x512 : Shape := ⟨4, ![96, 16, 96, 512]⟩
abbrev S1x1x1x512 : Shape := ⟨4, ![1, 1, 1, 512]⟩
abbrev S_ : Shape := ⟨0, ![]⟩
abbrev S96x16x96x128 : Shape := ⟨4, ![96, 16, 96, 128]⟩
abbrev S1x1x1x128 : Shape := ⟨4, ![1, 1, 1, 128]⟩
abbrev S96x16x96x1 : Shape := ⟨4, ![96, 16, 96, 1]⟩
abbrev S96x16x96x129 : Shape := ⟨4, ![96, 16, 96, 129]⟩
abbrev S96x16x96 : Shape := ⟨3, ![96, 16, 96]⟩

abbrev nBuf : Space → Nat
  | .hbm => 44
  | .vmem => 0
  | .smem => 0
  | _ => 0

abbrev bufTy : (tb : Table) → Fin (tcTables nBuf tb) → BufTy
  | .hbm, ⟨0, _⟩ => ⟨S96x16x512, .f32⟩
  | .hbm, ⟨1, _⟩ => ⟨S96x16x512, .f32⟩
  | .hbm, ⟨2, _⟩ => ⟨S512x1024, .f32⟩
  | .hbm, ⟨3, _⟩ => ⟨S512, .f32⟩
  | .hbm, ⟨4, _⟩ => ⟨S128x512, .f32⟩
  | .hbm, ⟨5, _⟩ => ⟨S128, .f32⟩
  | .hbm, ⟨6, _⟩ => ⟨S512x512, .f32⟩
  | .hbm, ⟨7, _⟩ => ⟨S96x16x512, .f32⟩
  | .hbm, ⟨8, _⟩ => ⟨S512x512, .f32⟩
  | .hbm, ⟨9, _⟩ => ⟨S96x16x512, .f32⟩
  | .hbm, ⟨10, _⟩ => ⟨S96x16x1x512, .f32⟩
  | .hbm, ⟨11, _⟩ => ⟨S16x96x512, .f32⟩
  | .hbm, ⟨12, _⟩ => ⟨S1x16x96x512, .f32⟩
  | .hbm, ⟨13, _⟩ => ⟨S96x16x96x512, .f32⟩
  | .hbm, ⟨14, _⟩ => ⟨S96x16x96x512, .f32⟩
  | .hbm, ⟨15, _⟩ => ⟨S96x16x96x512, .f32⟩
  | .hbm, ⟨16, _⟩ => ⟨S1x1x1x512, .f32⟩
  | .hbm, ⟨17, _⟩ => ⟨S96x16x96x512, .f32⟩
  | .hbm, ⟨18, _⟩ => ⟨S96x16x96x512, .f32⟩
  | .hbm, ⟨19, _⟩ => ⟨S_, .f32⟩
  | .hbm, ⟨20, _⟩ => ⟨S96x16x96x512, .f32⟩
  | .hbm, ⟨21, _⟩ => ⟨S96x16x96x512, .f32⟩
  | .hbm, ⟨22, _⟩ => ⟨S96x16x96x128, .f32⟩
  | .hbm, ⟨23, _⟩ => ⟨S1x1x1x128, .f32⟩
  | .hbm, ⟨24, _⟩ => ⟨S96x16x96x128, .f32⟩
  | .hbm, ⟨25, _⟩ => ⟨S96x16x96x128, .f32⟩
  | .hbm, ⟨26, _⟩ => ⟨S_, .f32⟩
  | .hbm, ⟨27, _⟩ => ⟨S96x16x96x1, .f32⟩
  | .hbm, ⟨28, _⟩ => ⟨S96x16x96x129, .f32⟩
  | .hbm, ⟨29, _⟩ => ⟨S_, .f32⟩
  | .hbm, ⟨30, _⟩ => ⟨S96x16x96, .f32⟩
  | .hbm, ⟨31, _⟩ => ⟨S_, .f32⟩
  | .hbm, ⟨32, _⟩ => ⟨S96x16x96, .f32⟩
  | .hbm, ⟨33, _⟩ => ⟨S96x16x96, .f32⟩
  | .hbm, ⟨34, _⟩ => ⟨S96x16x96x1, .f32⟩
  | .hbm, ⟨35, _⟩ => ⟨S96x16x96x129, .f32⟩
  | .hbm, ⟨36, _⟩ => ⟨S96x16x96x129, .f32⟩
  | .hbm, ⟨37, _⟩ => ⟨S96x16x96x129, .f32⟩
  | .hbm, ⟨38, _⟩ => ⟨S_, .f32⟩
  | .hbm, ⟨39, _⟩ => ⟨S96x16x96, .f32⟩
  | .hbm, ⟨40, _⟩ => ⟨S96x16x96x1, .f32⟩
  | .hbm, ⟨41, _⟩ => ⟨S96x16x96x1, .f32⟩
  | .hbm, ⟨42, _⟩ => ⟨S96x16x96x129, .f32⟩
  | .hbm, ⟨43, _⟩ => ⟨S96x16x96x129, .f32⟩
  | _, _ => ⟨S96x16x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_cst : Ref sig .tc := ⟨.hbm, 19, rfl⟩
abbrev main_call0_v0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_v19 : Ref sig .tc := ⟨.hbm, 28, rfl⟩
abbrev main_call1_cst : Ref sig .tc := ⟨.hbm, 29, rfl⟩
abbrev main_call1_v0 : Ref sig .tc := ⟨.hbm, 30, rfl⟩
abbrev main_call1_cst_0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_v6 : Ref sig .tc := ⟨.hbm, 37, rfl⟩
abbrev main_call1_cst_1 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_v20 : Ref sig .tc := ⟨.hbm, 43, rfl⟩

abbrev nD : Nat := 1
abbrev τ : Topo := Topo.v7x

variable {F : FTy → Type} [FloatOps F]

class Facts₀ : Prop where
  slices_S512x1024_S512x512_0_0 : S512x1024.Slices ![0, 0] S512x512
  slices_S512x1024_S512x512_0_512 : S512x1024.Slices ![0, 512] S512x512
  bcast_S96x16x512_S96x16x1x512_0_1_3 : S96x16x512.BroadcastsInDim S96x16x1x512 (![0, 1, 3] : Fin 3 → Fin S96x16x1x512.rank)
  transposes_S96x16x512_S16x96x512_1_0_2 : S96x16x512.Transposes [1, 0, 2] S16x96x512
  bcast_S16x96x512_S1x16x96x512_1_2_3 : S16x96x512.BroadcastsInDim S1x16x96x512 (![1, 2, 3] : Fin 3 → Fin S1x16x96x512.rank)
  bcast_S96x16x1x512_S96x16x96x512_0_1_2_3 : S96x16x1x512.BroadcastsInDim S96x16x96x512 (![0, 1, 2, 3] : Fin 4 → Fin S96x16x96x512.rank)
  bcast_S1x16x96x512_S96x16x96x512_0_1_2_3 : S1x16x96x512.BroadcastsInDim S96x16x96x512 (![0, 1, 2, 3] : Fin 4 → Fin S96x16x96x512.rank)
  bcast_S512_S1x1x1x512_3 : S512.BroadcastsInDim S1x1x1x512 (![3] : Fin 1 → Fin S1x1x1x512.rank)
  bcast_S1x1x1x512_S96x16x96x512_0_1_2_3 : S1x1x1x512.BroadcastsInDim S96x16x96x512 (![0, 1, 2, 3] : Fin 4 → Fin S96x16x96x512.rank)
  bcast_S_S96x16x96x512 : S_.BroadcastsInDim S96x16x96x512 (![] : Fin 0 → Fin S96x16x96x512.rank)
  bcast_S128_S1x1x1x128_3 : S128.BroadcastsInDim S1x1x1x128 (![3] : Fin 1 → Fin S1x1x1x128.rank)
  bcast_S1x1x1x128_S96x16x96x128_0_1_2_3 : S1x1x1x128.BroadcastsInDim S96x16x96x128 (![0, 1, 2, 3] : Fin 4 → Fin S96x16x96x128.rank)
  bcast_S_S96x16x96x1 : S_.BroadcastsInDim S96x16x96x1 (![] : Fin 0 → Fin S96x16x96x1.rank)
  concatenates_S96x16x96x1_S96x16x96x128_S96x16x96x129_d3 : Shape.Concatenates [S96x16x96x1, S96x16x96x128] S96x16x96x129 3
  reducesTo_S96x16x96x129_S96x16x96_d3 : S96x16x96x129.ReducesTo [3] S96x16x96
  h_S_ : 0 < S_.numel
  bcast_S_S96x16x96 : S_.BroadcastsInDim S96x16x96 (![] : Fin 0 → Fin S96x16x96.rank)
  bcast_S96x16x96_S96x16x96x1_0_1_2 : S96x16x96.BroadcastsInDim S96x16x96x1 (![0, 1, 2] : Fin 3 → Fin S96x16x96x1.rank)
  bcast_S96x16x96x1_S96x16x96x129_0_1_2_3 : S96x16x96x1.BroadcastsInDim S96x16x96x129 (![0, 1, 2, 3] : Fin 4 → Fin S96x16x96x129.rank)
  dot_S96x16x512_S512x512_S96x16x512_2_1_01_0_n_n_wf : DotDims.WF S96x16x512 S512x512 S96x16x512 [2] [1] [0, 1] [0] [] []
  dot_S96x16x96x512_S128x512_S96x16x96x128_3_1_012_0_n_n_wf : DotDims.WF S96x16x96x512 S128x512 S96x16x96x128 [3] [1] [0, 1, 2] [0] [] []

variable [Facts₀]

def dot_S96x16x512_S512x512_S96x16x512_2_1_01_0_n_n : DotDims S96x16x512 S512x512 S96x16x512 where
  lhsContracting := [2]
  rhsContracting := [1]
  lhsNonContracting := [0, 1]
  rhsNonContracting := [0]
  lhsBatch := []
  rhsBatch := []
  wf := dot_S96x16x512_S512x512_S96x16x512_2_1_01_0_n_n_wf
def dot_S96x16x96x512_S128x512_S96x16x96x128_3_1_012_0_n_n : DotDims S96x16x96x512 S128x512 S96x16x96x128 where
  lhsContracting := [3]
  rhsContracting := [1]
  lhsNonContracting := [0, 1, 2]
  rhsNonContracting := [0]
  lhsBatch := []
  rhsBatch := []
  wf := dot_S96x16x96x512_S128x512_S96x16x96x128_3_1_012_0_n_n_wf

class Facts : Prop extends Facts₀ where

variable [Facts]
-- ==== Proof.LibMatmul.lean ====
/-
  The plain matrix product read at an index.

  For the dimension numbers of an M×K by K×N product (contract the left operand's second axis with the right operand's
  first; no batch axes), the kernel's product into a zero accumulator and the host's dot_general both read, at (p, q), the
  sum over k of the left operand at (p, k) times the right operand at (k, q).
-/
import Idealize.ShloMosaic.PureOps.Ideal.Laws
import Idealize.ShloMosaic.Lib.ValueIdx

noncomputable section

namespace Cert.Matmul

open Idealize.ShloMosaic Idealize.ShloMosaic.ValueIdx

/-- The left operand's index at output (p, q) and contraction k is (p, k). -/
theorem lhsIdx_plain {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index at output (p, q) and contraction k is (k, q). -/
theorem rhsIdx_plain {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- THE KERNEL'S PRODUCT INTO THE ZERO CONSTANT, READ AT (p, q). -/
theorem matmul_plain_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [lhsIdx_plain, rhsIdx_plain]

/-- THE HOST'S dot_general, READ AT (p, q). -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  rw [lhsIdx_plain, rhsIdx_plain]

end Cert.Matmul

end
-- ==== Proof.ProjPayload.lean ====
/-
  The two projection kernels' stored value, read at an index.

  Each stores the product of its first block with the TRANSPOSE of its second block into a zero accumulator (the casts to bf16
  are the identity on the extended reals): at (p, q) that is Σ_k x[p, k] · w[q, k] — row p of x against row q of w.
-/
import proofs.«164323_j91199335563522_1_alg».proof.Proof.Gen.KernelIdeal.Skeleton
import proofs.«164323_j91199335563522_1_alg».proof.Proof.LibMatmul
import Idealize.ShloMosaic.Lib.Pipeline.Value

noncomputable section

namespace Cert.KernelIdeal.Pay

open Cert.KernelIdeal Cert.KernelIdeal.Gen Idealize.ShloMosaic Idealize.ShloMosaic.ValueIdx

/-- The printed dimension numbers of the projections' product are the plain M×K by K×N ones. -/
theorem dot_proj_plain : dot_S1536x512_S512x512_S1536x512_1_0_0_1_n_n = DotDims.plain 1536 512 512 := rfl

/-- The transposed square weight block at (k, q) is the block at (q, k). -/
theorem transpose_sq_apply (w : FVec Ideal S512x512 .bf16) (k q : Fin 512) :
    transpose S512x512 [1, 0] w transposes_S512x512_p1_0_S512x512 (ix2 k q) = w (ix2 q k) :=
  transpose_apply [1, 0] w transposes_S512x512_p1_0_S512x512 (ix2 k q) (ix2 q k) (fun b => by
    match b with
    | ⟨0, _⟩ => rfl
    | ⟨1, _⟩ => rfl)

/-- THE FIRST PROJECTION'S STORED VALUE at (p, q): row p of x against row q of w. -/
theorem pay0_apply (x : Vec Ideal S1536x512 .f32) (w : Vec Ideal S512x512 .f32) (p : Fin 1536) (q : Fin 512) :
    (k0_pay1 (F := Ideal) x w) (ix2 p q) = ∑ k : Fin 512, x (ix2 p k) * w (ix2 q k) := by
  unfold k0_pay1
  dsimp only
  rw [shapeCast_self, shapeCast_self, dot_proj_plain]
  refine (Cert.Matmul.matmul_plain_apply none _ _ p q).trans ?_
  refine Finset.sum_congr rfl fun k _ => ?_
  rw [transpose_sq_apply]
  rfl

/-- THE SECOND PROJECTION'S STORED VALUE at (p, q): the same function of its own blocks. -/
theorem pay1_apply (x : Vec Ideal S1536x512 .f32) (w : Vec Ideal S512x512 .f32) (p : Fin 1536) (q : Fin 512) :
    (k1_pay1 (F := Ideal) x w) (ix2 p q) = ∑ k : Fin 512, x (ix2 p k) * w (ix2 q k) := by
  unfold k1_pay1
  dsimp only
  rw [shapeCast_self, shapeCast_self, dot_proj_plain]
  refine (Cert.Matmul.matmul_plain_apply none _ _ p q).trans ?_
  refine Finset.sum_congr rfl fun k _ => ?_
  rw [transpose_sq_apply]
  rfl

end Cert.KernelIdeal.Pay

end
-- ==== Proof.ProjRegion.lean ====
/-
  What the two projection regions leave in their result arrays.

  Each region's grid is a single point whose blocks are the whole arrays (every block index is zero), so the one write-back covers
  the result array, and the array ends holding, at (p, q), row p of the region's first input array against row q of its second:
  Σ_k X[p, k] · W[q, k]. The arrays are those the region finds at its entry (the parameter V).
-/
import proofs.«164323_j91199335563522_1_alg».proof.Proof.Gen.KernelIdeal.Frame
import proofs.«164323_j91199335563522_1_alg».proof.Proof.ProjPayload
import Idealize.ShloMosaic.Lib.Pipeline.Value

set_option maxRecDepth 16384

noncomputable section

namespace Cert.KernelIdeal.Val

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- Row p of X against row q of Wm. -/
def rowsAt (X : S1536x512.Idx → EReal) (Wm : S512x512.Idx → EReal) (p : Fin 1536) (q : Fin 512) : EReal :=
  ∑ k : Fin 512, X (ix2 p k) * Wm (ix2 q k)

/-- The array of all those products. -/
def rowsProd (X : S1536x512.Idx → EReal) (Wm : S512x512.Idx → EReal) : S1536x512.Idx → EReal :=
  fun i => rowsAt X Wm (i 0) (i 1)

/-! ## The first projection -/

/-- Region 0's grid is one point and every window's block index there is zero. -/
theorem idx0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- WHAT REGION 0'S ONE POINT WRITES BACK is the block of `rowsProd` of its two input arrays. -/
theorem flushed0 (c : Dev nD) (t : Fin cfg0.N) :
    (dat0 V c).flushed 2 t = ((cfg0.win 2).blk t).view.read (Elt Ideal) (rowsProd (V c main_v2) (V c main_v0)) := by
  show (cfg0.win 2).cut (grid0.coords t) ((dat0 V c).after 2 t) = _
  rw [after0_2]
  unfold out0_2
  rw [View.canon_unit_zero hz2]
  simp only [View.ld_unit_zero (S := S1536x512) hz2, View.ld_unit_zero (S := S512x512) hz2]
  obtain ⟨h00, h01, h10, h11, h20, h21⟩ := idx0 t
  funext j
  obtain ⟨p, q, rfl⟩ : ∃ (p : Fin 1536) (q : Fin 512), j = ix2 p q := ⟨j 0, j 1, eq_ix2 j⟩
  show k0_pay1 (F := Ideal) (iblk0 V c 0 t) (iblk0 V c 1 t) (ix2 p q)
    = rowsProd (V c main_v2) (V c main_v0) (((cfg0.win 2).blk t).view.emb (ix2 p q))
  refine (Pay.pay0_apply _ _ p q).trans ?_
  have e2 : ((cfg0.win 2).blk t).view.emb (ix2 p q) = (ix2 p q : S1536x512.Idx) := by
    funext a; apply Fin.ext
    match a with
    | ⟨0, _⟩ => show win0_2.index t (0 : Fin 2) * 1536 + 1 * p.val = p.val; omega
    | ⟨1, _⟩ => show win0_2.index t (1 : Fin 2) * 512 + 1 * q.val = q.val; omega
  rw [e2]
  show _ = rowsAt (V c main_v2) (V c main_v0) p q
  unfold rowsAt
  refine Finset.sum_congr rfl fun k _ => ?_
  have e0 : ((cfg0.win 0).blk t).view.emb (ix2 p k) = (ix2 p k : S1536x512.Idx) := by
    funext a; apply Fin.ext
    match a with
    | ⟨0, _⟩ => show win0_0.index t (0 : Fin 2) * 1536 + 1 * p.val = p.val; omega
    | ⟨1, _⟩ => show win0_0.index t (1 : Fin 2) * 512 + 1 * k.val = k.val; omega
  have e1 : ((cfg0.win 1).blk t).view.emb (ix2 q k) = (ix2 q k : S512x512.Idx) := by
    funext a; apply Fin.ext
    match a with
    | ⟨0, _⟩ => show win0_1.index t (0 : Fin 2) * 512 + 1 * q.val = q.val; omega
    | ⟨1, _⟩ => show win0_1.index t (1 : Fin 2) * 512 + 1 * k.val = k.val; omega
  exact congrArg₂ (fun u v : EReal => u * v) (congrArg (V c main_v2) e0) (congrArg (V c main_v0) e1)

/-- THE FIRST PROJECTION'S RESULT ARRAY after its region: every row of its first input array against every row of its second. -/
theorem arr0 (c : Dev nD) : (dat0 V c).arrAt 2 cfg0.N = rowsProd (V c main_v2) (V c main_v0) :=
  (dat0 V c).arrAt_eq_of_cover 2 (rowsProd (V c main_v2) (V c main_v0)) (fun t _ => flushed0 V c t) fun i =>
    ⟨t0_0, flush0_2 t0_0, by
      show i ∈ ((View.whole main_v3).slice (win0_2.rect t0_0)).set
      rw [View.set_slice_whole, Rect.mem_set_unit]
      obtain ⟨-, -, -, -, h20, h21⟩ := idx0 t0_0
      have h0 : (i 0).val < 1536 := (i 0).isLt
      have h1 : (i 1).val < 512 := (i 1).isLt
      intro a
      match a with
      | ⟨0, _⟩ => show win0_2.index t0_0 (0 : Fin 2) * 1536 ≤ (i 0).val ∧ (i 0).val < win0_2.index t0_0 (0 : Fin 2) * 1536 + 1536; omega
      | ⟨1, _⟩ => show win0_2.index t0_0 (1 : Fin 2) * 512 ≤ (i 1).val ∧ (i 1).val < win0_2.index t0_0 (1 : Fin 2) * 512 + 512; omega⟩

/-! ## The second projection -/

/-- Region 1's grid is one point and every window's block index there is zero. -/
theorem idx1 : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- WHAT REGION 1'S ONE POINT WRITES BACK is the block of `rowsProd` of its two input arrays. -/
theorem flushed1 (c : Dev nD) (t : Fin cfg1.N) :
    (dat1 V c).flushed 2 t = ((cfg1.win 2).blk t).view.read (Elt Ideal) (rowsProd (V c main_v6) (V c main_v1)) := by
  show (cfg1.win 2).cut (grid1.coords t) ((dat1 V c).after 2 t) = _
  rw [after1_2]
  unfold out1_2
  rw [View.canon_unit_zero hz2]
  simp only [View.ld_unit_zero (S := S1536x512) hz2, View.ld_unit_zero (S := S512x512) hz2]
  obtain ⟨h00, h01, h10, h11, h20, h21⟩ := idx1 t
  funext j
  obtain ⟨p, q, rfl⟩ : ∃ (p : Fin 1536) (q : Fin 512), j = ix2 p q := ⟨j 0, j 1, eq_ix2 j⟩
  show k1_pay1 (F := Ideal) (iblk1 V c 0 t) (iblk1 V c 1 t) (ix2 p q)
    = rowsProd (V c main_v6) (V c main_v1) (((cfg1.win 2).blk t).view.emb (ix2 p q))
  refine (Pay.pay1_apply _ _ p q).trans ?_
  have e2 : ((cfg1.win 2).blk t).view.emb (ix2 p q) = (ix2 p q : S1536x512.Idx) := by
    funext a; apply Fin.ext
    match a with
    | ⟨0, _⟩ => show win1_2.index t (0 : Fin 2) * 1536 + 1 * p.val = p.val; omega
    | ⟨1, _⟩ => show win1_2.index t (1 : Fin 2) * 512 + 1 * q.val = q.val; omega
  rw [e2]
  show _ = rowsAt (V c main_v6) (V c main_v1) p q
  unfold rowsAt
  refine Finset.sum_congr rfl fun k _ => ?_
  have e0 : ((cfg1.win 0).blk t).view.emb (ix2 p k) = (ix2 p k : S1536x512.Idx) := by
    funext a; apply Fin.ext
    match a with
    | ⟨0, _⟩ => show win1_0.index t (0 : Fin 2) * 1536 + 1 * p.val = p.val; omega
    | ⟨1, _⟩ => show win1_0.index t (1 : Fin 2) * 512 + 1 * k.val = k.val; omega
  have e1 : ((cfg1.win 1).blk t).view.emb (ix2 q k) = (ix2 q k : S512x512.Idx) := by
    funext a; apply Fin.ext
    match a with
    | ⟨0, _⟩ => show win1_1.index t (0 : Fin 2) * 512 + 1 * q.val = q.val; omega
    | ⟨1, _⟩ => show win1_1.index t (1 : Fin 2) * 512 + 1 * k.val = k.val; omega
  exact congrArg₂ (fun u v : EReal => u * v) (congrArg (V c main_v6) e0) (congrArg (V c main_v1) e1)

/-- THE SECOND PROJECTION'S RESULT ARRAY after its region: every row of its first input array against every row of its second. -/
theorem arr1 (c : Dev nD) : (dat1 V c).arrAt 2 cfg1.N = rowsProd (V c main_v6) (V c main_v1) :=
  (dat1 V c).arrAt_eq_of_cover 2 (rowsProd (V c main_v6) (V c main_v1)) (fun t _ => flushed1 V c t) fun i =>
    ⟨t1_0, flush1_2 t1_0, by
      show i ∈ ((View.whole main_v7).slice (win1_2.rect t1_0)).set
      rw [View.set_slice_whole, Rect.mem_set_unit]
      obtain ⟨-, -, -, -, h20, h21⟩ := idx1 t1_0
      have h0 : (i 0).val < 1536 := (i 0).isLt
      have h1 : (i 1).val < 512 := (i 1).isLt
      intro a
      match a with
      | ⟨0, _⟩ => show win1_2.index t1_0 (0 : Fin 2) * 1536 ≤ (i 0).val ∧ (i 0).val < win1_2.index t1_0 (0 : Fin 2) * 1536 + 1536; omega
      | ⟨1, _⟩ => show win1_2.index t1_0 (1 : Fin 2) * 512 ≤ (i 1).val ∧ (i 1).val < win1_2.index t1_0 (1 : Fin 2) * 512 + 512; omega⟩

end Cert.KernelIdeal.Val

end
-- ==== Proof.Spec.lean ====
/-
  The function both programs compute, index by index over the extended reals.

  For a dependent d, a batch entry b, a head h and a relation column c:
    dep  d b e = Σ_k outs[d, b, k] · Wt[e, k]            (the first 512 columns of Wt)
    head h b e = Σ_k gs[h, b, k] · Wt[e, 512 + k]        (the last 512 columns of Wt)
    hid        = max ((dep + head) + bt[e]) 0
    score r    = (Σ_e hid e · Wp[r, e]) + bp[r]
    row        = the 129 logits: 0 in column 0, score (c − 1) in column c ≥ 1
    result     = (row c − M) − log Σ_k exp (row k − M),  M = max (−∞) (the row's maximum from −∞)
  Every sum is a finite sum over a Fin type, so neither the order nor the grouping of its terms matters; the two
  float words that occur (the zero word and the −∞ word) are kept as words, the same on both sides.
-/
import Idealize.ShloMosaic.PureOps.Ideal.Laws
import Idealize.ShloMosaic.Lib.ValueIdx

noncomputable section

namespace Cert.PairScore

open Idealize.ShloMosaic Idealize.ShloMosaic.ValueIdx

/-- The f32 zero word, read at the extended reals. -/
abbrev zeroW : EReal := Ideal.ofBits .f32 0x00000000#32
/-- The f32 word of −∞, read at the extended reals. -/
abbrev negInfW : EReal := Ideal.ofBits .f32 0xFF800000#32

/-- Column k of Wt's first half. -/
def lo (k : Fin 512) : Fin 1024 := ⟨k.val, by omega⟩
/-- Column k of Wt's second half. -/
def hi (k : Fin 512) : Fin 1024 := ⟨512 + k.val, by omega⟩

/-- A row of 512 entries against a row of 512 weights. -/
def dot512 (x w : Fin 512 → EReal) : EReal := ∑ k : Fin 512, x k * w k

/-- The dependent's projection: row (d, b) of outs against row e of Wt's first half. -/
def depProj (outs : (⟨3, ![96, 16, 512]⟩ : Shape).Idx → EReal) (Wt : (⟨2, ![512, 1024]⟩ : Shape).Idx → EReal)
    (d : Fin 96) (b : Fin 16) (e : Fin 512) : EReal :=
  ∑ k : Fin 512, outs (ix3 d b k) * Wt (ix2 e (lo k))

/-- The head's projection: row (h, b) of the graph state against row e of Wt's second half. -/
def headProj (gs : (⟨3, ![96, 16, 512]⟩ : Shape).Idx → EReal) (Wt : (⟨2, ![512, 1024]⟩ : Shape).Idx → EReal)
    (h : Fin 96) (b : Fin 16) (e : Fin 512) : EReal :=
  ∑ k : Fin 512, gs (ix3 h b k) * Wt (ix2 e (hi k))

/-- The rectified sum of the two projections and the bias, grouped (u + v) + w. -/
def hidden (u v w : EReal) : EReal := max (u + v + w) zeroW

/-- One relation's score of a hidden row. -/
def score (x : Fin 512 → EReal) (Wp : (⟨2, ![128, 512]⟩ : Shape).Idx → EReal) (bp : (⟨1, ![128]⟩ : Shape).Idx → EReal)
    (r : Fin 128) : EReal :=
  (∑ e : Fin 512, x e * Wp (ix2 r e)) + bp (ix1 r)

/-- The 129 logits of a pair: the zero word in column 0, the 128 scores behind it. -/
def logits (s : Fin 128 → EReal) (c : Fin 129) : EReal :=
  if h : c.val = 0 then zeroW else s ⟨c.val - 1, by have := c.isLt; omega⟩

/-- The row's maximum as both programs take it: from −∞, then once more against −∞. -/
def rowMax (z : Fin 129 → EReal) : EReal := max negInfW ((Finset.univ : Finset (Fin 129)).fold max negInfW z)

/-- The log-softmax of a row of 129 logits, at column c. -/
def logSoftmax (z : Fin 129 → EReal) (c : Fin 129) : EReal :=
  (z c - rowMax z) - Ideal.log (∑ k : Fin 129, Ideal.exp (z k - rowMax z))

/-- A pair's result from its two projected rows: what one grid point computes of its blocks, and what the reference
    computes of the whole arrays. -/
def pairRow (u v w : Fin 512 → EReal) (Wp : (⟨2, ![128, 512]⟩ : Shape).Idx → EReal) (bp : (⟨1, ![128]⟩ : Shape).Idx → EReal)
    (c : Fin 129) : EReal :=
  logSoftmax (logits (score (fun e => hidden (u e) (v e) (w e)) Wp bp)) c

/-- THE RESULT at (d, b, h, c), of the six argument arrays. -/
def resultAt (outs gs : (⟨3, ![96, 16, 512]⟩ : Shape).Idx → EReal) (Wt : (⟨2, ![512, 1024]⟩ : Shape).Idx → EReal)
    (bt : (⟨1, ![512]⟩ : Shape).Idx → EReal) (Wp : (⟨2, ![128, 512]⟩ : Shape).Idx → EReal) (bp : (⟨1, ![128]⟩ : Shape).Idx → EReal)
    (d : Fin 96) (b : Fin 16) (h : Fin 96) (c : Fin 129) : EReal :=
  pairRow (fun e => depProj outs Wt d b e) (fun e => headProj gs Wt h b e) (fun e => bt (ix1 e)) Wp bp c

/-- THE RESULT ARRAY: `resultAt` at an index's four coordinates. -/
def result (outs gs : (⟨3, ![96, 16, 512]⟩ : Shape).Idx → EReal) (Wt : (⟨2, ![512, 1024]⟩ : Shape).Idx → EReal)
    (bt : (⟨1, ![512]⟩ : Shape).Idx → EReal) (Wp : (⟨2, ![128, 512]⟩ : Shape).Idx → EReal) (bp : (⟨1, ![128]⟩ : Shape).Idx → EReal) :
    (⟨4, ![96, 16, 96, 129]⟩ : Shape).Idx → EReal :=
  fun i => resultAt outs gs Wt bt Wp bp (i 0) (i 1) (i 2) (i 3)

end Cert.PairScore

end
-- ==== Proof.FusedPayload.lean ====
/-
  The fused kernel's stored value, read at an index.

  From its five loaded blocks — x0 the dependents' projected rows [16, 16, 512], x1 the heads' projected rows [16, 16, 512]
  (batch first), x2 the bias [512], x3 the relation weights [128, 512], x4 the relation bias [128] — the kernel stores, at
  (a, b, h, c), the log-softmax at column c of the 129 logits of the pair (a, h) in batch entry b: the rectified sum
  (x0[a, b, ·] + x1[b, h, ·]) + x2 against every row of x3, plus x4, behind a zero column.
-/
import proofs.«164323_j91199335563522_1_alg».proof.Proof.Gen.KernelIdeal.Skeleton
import proofs.«164323_j91199335563522_1_alg».proof.Proof.LibMatmul
import proofs.«164323_j91199335563522_1_alg».proof.Proof.Spec
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-! ## The value cut into three stages -/

/-- The hidden block [16, 16, 16, 512]: the two projected blocks spread over the pair axes, summed, the bias added, rectified. -/
def hid2 (v0 v2 : Vec Ideal S16x16x512 .f32) (v4 : Vec Ideal S512 .f32) : FVec Ideal S16x16x16x512 .f32 :=
  have v1 : FVec Ideal S16x16x512 .f32 := shapeCast S16x16x512 v0 shapeCasts_S16x16x512_S16x16x512
  have v3 : FVec Ideal S16x16x512 .f32 := shapeCast S16x16x512 v2 shapeCasts_S16x16x512_S16x16x512
  have v5 : FVec Ideal S16x16x1x512 .f32 := shapeCast S16x16x1x512 v1 shapeCasts_S16x16x512_S16x16x1x512
  have v6 : FVec Ideal S1x16x16x512 .f32 := shapeCast S1x16x16x512 v3 shapeCasts_S16x16x512_S1x16x16x512
  have v7 : FVec Ideal S16x16x16x512 .f32 := broadcastTo S16x16x16x512 v5 broadcasts_S16x16x1x512_S16x16x16x512
  have v8 : FVec Ideal S16x16x16x512 .f32 := broadcastTo S16x16x16x512 v6 broadcasts_S1x16x16x512_S16x16x16x512
  have v9 : FVec Ideal S16x16x16x512 .f32 := addf v7 v8
  have v10 : FVec Ideal S1x1x1x512 .f32 := shapeCast S1x1x1x512 v4 shapeCasts_S512_S1x1x1x512
  have v11 : FVec Ideal S16x16x16x512 .f32 := broadcastTo S16x16x16x512 v10 broadcasts_S1x1x1x512_S16x16x16x512
  have v12 : FVec Ideal S16x16x16x512 .f32 := addf v9 v11
  have cst : Ideal .f32 := Scalar.ofBits .f32 0x00000000#32
  have v13 : FVec Ideal S16x16x16x512 .f32 := broadcast S16x16x16x512 cst
  have v14 : FVec Ideal S16x16x16x512 .f32 := maximumf v12 v13
  v14

/-- The logits block [16, 16, 16, 129] of a hidden block: the hidden rows as a [4096, 512] matrix against the transposed relation
    weights, the relation bias added, cast back to the pair axes, behind a zero column. -/
def sc2 (v14 : FVec Ideal S16x16x16x512 .f32) (v17 : Vec Ideal S128x512 .f32) (v21 : Vec Ideal S128 .f32) :
    FVec Ideal S16x16x16x129 .f32 :=
  have v15 : FVec Ideal S16x16x16x512 .bf16 := truncf .bf16 v14 bitsLt_bf16_f32
  have v16 : FVec Ideal S4096x512 .bf16 := shapeCast S4096x512 v15 shapeCasts_S16x16x16x512_S4096x512
  have v18 : FVec Ideal S128x512 .bf16 := truncf .bf16 v17 bitsLt_bf16_f32
  have v19 : FVec Ideal S512x128 .bf16 := transpose S512x128 [1, 0] v18 transposes_S128x512_p1_0_S512x128
  have cst_8 : FVec Ideal S4096x128 .f32 := constant S4096x128 .f32 0x00000000#32
  have v20 : FVec Ideal S4096x128 .f32 := matmul dot_S4096x512_S512x128_S4096x128_1_0_0_1_n_n none v16 v19 cst_8
  have v22 : FVec Ideal S1x128 .f32 := shapeCast S1x128 v21 shapeCasts_S128_S1x128
  have v23 : FVec Ideal S4096x128 .f32 := broadcastTo S4096x128 v22 broadcasts_S1x128_S4096x128
  have v24 : FVec Ideal S4096x128 .f32 := addf v20 v23
  have v25 : FVec Ideal S16x16x16x128 .f32 := shapeCast S16x16x16x128 v24 shapeCasts_S4096x128_S16x16x16x128
  have cst_10 : Ideal .f32 := Scalar.ofBits .f32 0x00000000#32
  have v26 : FVec Ideal S16x16x16x1 .f32 := broadcast S16x16x16x1 cst_10
  have v27 : FVec Ideal S16x16x16x129 .f32 := concatenate S16x16x16x129 3 [⟨S16x16x16x1, v26⟩, ⟨S16x16x16x128, v25⟩] concatenates_S16x16x16x1_S16x16x16x128_S16x16x16x129_d3
  v27

/-- A row's maximum (from the −∞ word, then once more against it), spread back over the row. -/
def rmax2 (v27 : FVec Ideal S16x16x16x129 .f32) : FVec Ideal S16x16x16x129 .f32 :=
  have v28 : FVec Ideal S16x16x16 .f32 := multiReduction .maximumf [3] S16x16x16 v27 0xFF800000#32 reduces_S16x16x16x129_S16x16x16 (.inl rfl) rfl
  have cst_12 : Ideal .f32 := Scalar.ofBits .f32 0xFF800000#32
  have v29 : FVec Ideal S16x16x16 .f32 := broadcast S16x16x16 cst_12
  have v30 : FVec Ideal S16x16x16 .f32 := maximumf v29 v28
  have v31 : FVec Ideal S16x16x16x1 .f32 := shapeCast S16x16x16x1 v30 shapeCasts_S16x16x16_S16x16x16x1
  have v32 : FVec Ideal S16x16x16x129 .f32 := broadcastTo S16x16x16x129 v31 broadcasts_S16x16x16x1_S16x16x16x129
  v32

/-- The logits less their row's maximum. -/
def cen2 (v27 : FVec Ideal S16x16x16x129 .f32) : FVec Ideal S16x16x16x129 .f32 :=
  subf v27 (rmax2 v27)

/-- The logarithm of a row's sum of exponentials, spread back over the row. -/
def lse2 (v33 : FVec Ideal S16x16x16x129 .f32) : FVec Ideal S16x16x16x129 .f32 :=
  have v34 : FVec Ideal S16x16x16x129 .f32 := exp v33
  have v35 : FVec Ideal S16x16x16 .f32 := multiReduction .add [3] S16x16x16 v34 0x00000000#32 reduces_S16x16x16x129_S16x16x16 (.inl rfl) rfl
  have v36 : FVec Ideal S16x16x16x1 .f32 := shapeCast S16x16x16x1 v35 shapeCasts_S16x16x16_S16x16x16x1
  have v37 : FVec Ideal S16x16x16x1 .f32 := log v36
  have v38 : FVec Ideal S16x16x16x129 .f32 := broadcastTo S16x16x16x129 v37 broadcasts_S16x16x16x1_S16x16x16x129
  v38

/-- The log-softmax along the last axis of a logits block [16, 16, 16, 129]. -/
def lsm2 (v27 : FVec Ideal S16x16x16x129 .f32) : FVec Ideal S16x16x16x129 .f32 :=
  subf (cen2 v27) (lse2 (cen2 v27))

/-- The payload is the three stages composed: by unfolding. -/
theorem pay2_stages (x0 x1 : Vec Ideal S16x16x512 .f32) (x2 : Vec Ideal S512 .f32) (x3 : Vec Ideal S128x512 .f32)
    (x4 : Vec Ideal S128 .f32) :
    k2_pay1 (F := Ideal) x0 x1 x2 x3 x4 = lsm2 (sc2 (hid2 x0 x1 x2) x3 x4) := rfl

/-! ## The hidden block read at an index -/

/-- The dependents' block, given a unit head axis and spread over the heads, reads at (a, b, h, e) the block at (a, b, e). -/
theorem spread_dep_apply (v : FVec Ideal S16x16x512 .f32) (a b h : Fin 16) (e : Fin 512) :
    broadcastTo S16x16x16x512 (shapeCast S16x16x1x512 v shapeCasts_S16x16x512_S16x16x1x512)
      broadcasts_S16x16x1x512_S16x16x16x512 (ix4 a b h e) = v (ix3 a b e) := by
  refine (broadcastTo_apply _ broadcasts_S16x16x1x512_S16x16x16x512 (ix4 a b h e) (ix4 a b (0 : Fin 1) e) fun ax => ?_).trans ?_
  · match ax with
    | ⟨0, _⟩ => rfl
    | ⟨1, _⟩ => rfl
    | ⟨2, _⟩ => rfl
    | ⟨3, _⟩ => rfl
  · refine shapeCast_apply v shapeCasts_S16x16x512_S16x16x1x512 (ix4 a b (0 : Fin 1) e) (ix3 a b e) ?_
    rw [Shape.rowMajor_val_three, Shape.rowMajor_val_four]
    show (a.val * 16 + b.val) * 512 + e.val = ((a.val * 16 + b.val) * 1 + 0) * 512 + e.val
    omega

/-- The heads' block (batch first), given a unit dependent axis and spread over the dependents, reads at (a, b, h, e) the
    block at (b, h, e). -/
theorem spread_head_apply (v : FVec Ideal S16x16x512 .f32) (a b h : Fin 16) (e : Fin 512) :
    broadcastTo S16x16x16x512 (shapeCast S1x16x16x512 v shapeCasts_S16x16x512_S1x16x16x512)
      broadcasts_S1x16x16x512_S16x16x16x512 (ix4 a b h e) = v (ix3 b h e) := by
  refine (broadcastTo_apply _ broadcasts_S1x16x16x512_S16x16x16x512 (ix4 a b h e) (ix4 (0 : Fin 1) b h e) fun ax => ?_).trans ?_
  · match ax with
    | ⟨0, _⟩ => rfl
    | ⟨1, _⟩ => rfl
    | ⟨2, _⟩ => rfl
    | ⟨3, _⟩ => rfl
  · exact shapeCast_abc_1abc_apply v shapeCasts_S16x16x512_S1x16x16x512 (0 : Fin 1) b h e

/-- The bias, given three unit axes and spread over them, reads at (a, b, h, e) the bias at e. -/
theorem spread_bias_apply (v : FVec Ideal S512 .f32) (a b h : Fin 16) (e : Fin 512) :
    broadcastTo S16x16x16x512 (shapeCast S1x1x1x512 v shapeCasts_S512_S1x1x1x512)
      broadcasts_S1x1x1x512_S16x16x16x512 (ix4 a b h e) = v (ix1 e) := by
  refine (broadcastTo_apply _ broadcasts_S1x1x1x512_S16x16x16x512 (ix4 a b h e)
    (ix4 (0 : Fin 1) (0 : Fin 1) (0 : Fin 1) e) fun ax => ?_).trans ?_
  · match ax with
    | ⟨0, _⟩ => rfl
    | ⟨1, _⟩ => rfl
    | ⟨2, _⟩ => rfl
    | ⟨3, _⟩ => rfl
  · refine shapeCast_apply v shapeCasts_S512_S1x1x1x512 (ix4 (0 : Fin 1) (0 : Fin 1) (0 : Fin 1) e) (ix1 e) ?_
    rw [Shape.rowMajor_val_one, Shape.rowMajor_val_four]
    show e.val = ((0 * 1 + 0) * 1 + 0) * 512 + e.val
    omega

/-- THE HIDDEN BLOCK at (a, b, h, e): the rectified sum of the dependent's entry, the head's entry and the bias. -/
theorem hid2_apply (x0 x1 : Vec Ideal S16x16x512 .f32) (x2 : Vec Ideal S512 .f32) (a b h : Fin 16) (e : Fin 512) :
    hid2 x0 x1 x2 (ix4 a b h e) = Cert.PairScore.hidden (x0 (ix3 a b e)) (x1 (ix3 b h e)) (x2 (ix1 e)) := by
  unfold hid2 Cert.PairScore.hidden
  rw [shapeCast_self, shapeCast_self]
  refine (maximumf_apply _ _ _).trans ?_
  rw [addf_apply, addf_apply, spread_dep_apply, spread_head_apply, spread_bias_apply]
  rfl

/-! ## The logits block read at an index -/

/-- The printed dimension numbers of the fused kernel's product are the plain 4096×512 by 512×128 ones. -/
theorem dot_fused_plain : dot_S4096x512_S512x128_S4096x128_1_0_0_1_n_n = DotDims.plain 4096 512 128 := rfl

/-- The row of the [4096, ·] matrix that the pair (a, b, h) is cast to. -/
def prow (a b h : Fin 16) : Fin 4096 := ⟨256 * a.val + 16 * b.val + h.val, by omega⟩

/-- The hidden block as a [4096, 512] matrix reads, at (row of (a, b, h), e), the block at (a, b, h, e). -/
theorem rows_apply (v : FVec Ideal S16x16x16x512 .bf16) (a b h : Fin 16) (e : Fin 512) :
    shapeCast S4096x512 v shapeCasts_S16x16x16x512_S4096x512 (ix2 (prow a b h) e) = v (ix4 a b h e) := by
  refine shapeCast_apply v shapeCasts_S16x16x16x512_S4096x512 (ix2 (prow a b h) e) (ix4 a b h e) ?_
  rw [Shape.rowMajor_val_two, Shape.rowMajor_val_four]
  show ((a.val * 16 + b.val) * 16 + h.val) * 512 + e.val = (256 * a.val + 16 * b.val + h.val) * 512 + e.val
  omega

/-- A [4096, 128] matrix cast back to the pair axes reads, at (a, b, h, q), the matrix at (row of (a, b, h), q). -/
theorem unrows_apply (v : FVec Ideal S4096x128 .f32) (a b h : Fin 16) (q : Fin 128) :
    shapeCast S16x16x16x128 v shapeCasts_S4096x128_S16x16x16x128 (ix4 a b h q) = v (ix2 (prow a b h) q) := by
  refine shapeCast_apply v shapeCasts_S4096x128_S16x16x16x128 (ix4 a b h q) (ix2 (prow a b h) q) ?_
  rw [Shape.rowMajor_val_two, Shape.rowMajor_val_four]
  show (256 * a.val + 16 * b.val + h.val) * 128 + q.val = ((a.val * 16 + b.val) * 16 + h.val) * 128 + q.val
  omega

/-- The relation bias, given a unit row axis and spread over the 4096 rows, reads at (p, q) the bias at q. -/
theorem spread_rbias_apply (v : FVec Ideal S128 .f32) (p : Fin 4096) (q : Fin 128) :
    broadcastTo S4096x128 (shapeCast S1x128 v shapeCasts_S128_S1x128) broadcasts_S1x128_S4096x128 (ix2 p q) = v (ix1 q) :=
  (broadcastTo_1b_ab_apply _ broadcasts_S1x128_S4096x128 p q).trans
    (shapeCast_a_1a_apply v shapeCasts_S128_S1x128 (0 : Fin 1) q)

/-- The product with the bias, at (p, q): row p of the hidden matrix against row q of the relation weights, plus the bias at q. -/
theorem scored_apply (m : FVec Ideal S4096x512 .bf16) (w : FVec Ideal S128x512 .bf16) (bias : FVec Ideal S128 .f32)
    (p : Fin 4096) (q : Fin 128) :
    addf (matmul dot_S4096x512_S512x128_S4096x128_1_0_0_1_n_n none m
        (transpose S512x128 [1, 0] w transposes_S128x512_p1_0_S512x128) (constant S4096x128 .f32 0x00000000#32))
      (broadcastTo S4096x128 (shapeCast S1x128 bias shapeCasts_S128_S1x128) broadcasts_S1x128_S4096x128) (ix2 p q)
      = (∑ k : Fin 512, m (ix2 p k) * w (ix2 q k)) + bias (ix1 q) := by
  rw [addf_apply, spread_rbias_apply, dot_fused_plain]
  refine congrArg (· + bias (ix1 q)) ?_
  refine (Cert.Matmul.matmul_plain_apply none _ _ p q).trans ?_
  refine Finset.sum_congr rfl fun k _ => ?_
  rw [transpose_ix2_apply]

/-- THE LOGITS BLOCK at (a, b, h, c): the zero word in column 0, the score of relation c − 1 behind it. -/
theorem sc2_apply (z : FVec Ideal S16x16x16x512 .f32) (x3 : Vec Ideal S128x512 .f32) (x4 : Vec Ideal S128 .f32)
    (a b h : Fin 16) (c : Fin 129) :
    sc2 z x3 x4 (ix4 a b h c)
      = Cert.PairScore.logits (Cert.PairScore.score (fun e => z (ix4 a b h e)) x3 x4) c := by
  unfold sc2 Cert.PairScore.logits
  by_cases hc : c.val = 0
  · rw [dif_pos hc]
    refine (concatenate_pair_apply_left (t := S16x16x16x129) (s₁ := S16x16x16x1) (s₂ := S16x16x16x128) (3 : Fin 4) _ _ concatenates_S16x16x16x1_S16x16x16x128_S16x16x16x129_d3
      (ix4 a b h c) rfl (ix4 a b h (0 : Fin 1)) fun ax => ?_).trans rfl
    match ax with
    | ⟨0, _⟩ => rfl
    | ⟨1, _⟩ => rfl
    | ⟨2, _⟩ => rfl
    | ⟨3, _⟩ => exact hc.symm
  · rw [dif_neg hc]
    have hq : c.val - 1 < 128 := by have := c.isLt; omega
    refine (concatenate_pair_apply_right (t := S16x16x16x129) (s₁ := S16x16x16x1) (s₂ := S16x16x16x128) (3 : Fin 4) _ _ concatenates_S16x16x16x1_S16x16x16x128_S16x16x16x129_d3
      (ix4 a b h c) rfl rfl (ix4 a b h (⟨c.val - 1, hq⟩ : Fin 128)) (fun ax hax => ?_) ?_).trans ?_
    · match ax with
      | ⟨0, _⟩ => rfl
      | ⟨1, _⟩ => rfl
      | ⟨2, _⟩ => rfl
      | ⟨3, _⟩ => exact absurd rfl hax
    · show c.val - 1 + 1 = c.val
      omega
    · rw [unrows_apply, scored_apply]
      unfold Cert.PairScore.score
      refine congrArg (· + x4 (ix1 (⟨c.val - 1, hq⟩ : Fin 128))) ?_
      refine Finset.sum_congr rfl fun k _ => ?_
      rw [rows_apply]
      rfl

/-! ## The log-softmax read at an index -/

/-- A [16, 16, 16] array given a unit last axis reads, at (a, b, h, u), the array at (a, b, h). -/
theorem keep_apply (v : FVec Ideal S16x16x16 .f32) (a b h : Fin 16) (u : Fin 1) :
    shapeCast S16x16x16x1 v shapeCasts_S16x16x16_S16x16x16x1 (ix4 a b h u) = v (ix3 a b h) := by
  refine shapeCast_apply v shapeCasts_S16x16x16_S16x16x16x1 (ix4 a b h u) (ix3 a b h) ?_
  have hu : u.val = 0 := by omega
  rw [Shape.rowMajor_val_three, Shape.rowMajor_val_four]
  show (a.val * 16 + b.val) * 16 + h.val = ((a.val * 16 + b.val) * 16 + h.val) * 1 + u.val
  omega

/-- A [16, 16, 16, 1] array spread over 129 columns reads, at (a, b, h, c), the array at (a, b, h, 0). -/
theorem spread_col_apply (w : FVec Ideal S16x16x16x1 .f32) (a b h : Fin 16) (c : Fin 129) :
    broadcastTo S16x16x16x129 w broadcasts_S16x16x16x1_S16x16x16x129 (ix4 a b h c) = w (ix4 a b h (0 : Fin 1)) := by
  refine broadcastTo_apply w broadcasts_S16x16x16x1_S16x16x16x129 (ix4 a b h c) (ix4 a b h (0 : Fin 1)) fun ax => ?_
  match ax with
  | ⟨0, _⟩ => rfl
  | ⟨1, _⟩ => rfl
  | ⟨2, _⟩ => rfl
  | ⟨3, _⟩ => rfl

/-- The index the reduction over the last axis inserts column k at is (a, b, h, k). -/
theorem lift_row (a b h : Fin 16) (k : Fin 129) :
    reduces_S16x16x16x129_S16x16x16.lift (ix3 a b h) k = ix4 a b h k := by
  funext ax
  match ax with
  | ⟨0, _⟩ => rfl
  | ⟨1, _⟩ => rfl
  | ⟨2, _⟩ => rfl
  | ⟨3, _⟩ => rfl

/-- The row's maximum at (a, b, h, c), whatever the column c. -/
theorem rmax2_apply (z : FVec Ideal S16x16x16x129 .f32) (a b h : Fin 16) (c : Fin 129) :
    rmax2 z (ix4 a b h c) = Cert.PairScore.rowMax (fun k => z (ix4 a b h k)) := by
  unfold rmax2 Cert.PairScore.rowMax
  rw [spread_col_apply, keep_apply]
  refine (maximumf_apply _ _ _).trans ?_
  refine congrArg (max (Ideal.ofBits .f32 0xFF800000#32)) ?_
  refine (Ideal.multiReduction_maximumf_single z _ reduces_S16x16x16x129_S16x16x16 _ _ (ix3 a b h)).trans ?_
  refine congrArg (fun f : Fin 129 → EReal => (Finset.univ : Finset (Fin 129)).fold max (Ideal.ofBits .f32 0xFF800000#32) f) ?_
  funext k
  exact congrArg z (lift_row a b h k)

/-- The centred logit at (a, b, h, c). -/
theorem cen2_apply (z : FVec Ideal S16x16x16x129 .f32) (a b h : Fin 16) (c : Fin 129) :
    cen2 z (ix4 a b h c) = z (ix4 a b h c) - Cert.PairScore.rowMax (fun k => z (ix4 a b h k)) := by
  unfold cen2
  rw [subf_apply, rmax2_apply]

/-- The logarithm of the row's sum of exponentials at (a, b, h, c), whatever the column c. -/
theorem lse2_apply (y : FVec Ideal S16x16x16x129 .f32) (a b h : Fin 16) (c : Fin 129) :
    lse2 y (ix4 a b h c) = Ideal.log (∑ k : Fin 129, Ideal.exp (y (ix4 a b h k))) := by
  unfold lse2
  rw [spread_col_apply]
  show Ideal.log (shapeCast S16x16x16x1 _ shapeCasts_S16x16x16_S16x16x16x1 (ix4 a b h (0 : Fin 1))) = _
  rw [keep_apply]
  refine congrArg Ideal.log ?_
  refine (Ideal.multiReduction_add_single (exp y) _ reduces_S16x16x16x129_S16x16x16 _ _ (ix3 a b h)).trans ?_
  refine Finset.sum_congr rfl fun k _ => ?_
  exact congrArg (fun i => Ideal.exp (y i)) (lift_row a b h k)

/-- THE LOG-SOFTMAX at (a, b, h, c), of the row (a, b, h, ·). -/
theorem lsm2_apply (z : FVec Ideal S16x16x16x129 .f32) (a b h : Fin 16) (c : Fin 129) :
    lsm2 z (ix4 a b h c) = Cert.PairScore.logSoftmax (fun k => z (ix4 a b h k)) c := by
  unfold lsm2 Cert.PairScore.logSoftmax
  rw [subf_apply, lse2_apply, cen2_apply]
  refine congrArg (fun s : EReal => z (ix4 a b h c) - Cert.PairScore.rowMax (fun k => z (ix4 a b h k)) - Ideal.log s) ?_
  refine Finset.sum_congr rfl fun k _ => ?_
  rw [cen2_apply]

/-! ## The three stages assembled -/

/-- THE FUSED KERNEL'S STORED VALUE at (a, b, h, c). -/
theorem pay2_apply (x0 x1 : Vec Ideal S16x16x512 .f32) (x2 : Vec Ideal S512 .f32) (x3 : Vec Ideal S128x512 .f32)
    (x4 : Vec Ideal S128 .f32) (a b h : Fin 16) (c : Fin 129) :
    (k2_pay1 (F := Ideal) x0 x1 x2 x3 x4) (ix4 a b h c)
      = Cert.PairScore.pairRow (fun e => x0 (ix3 a b e)) (fun e => x1 (ix3 b h e)) (fun e => x2 (ix1 e)) x3 x4 c := by
  rw [pay2_stages, lsm2_apply]
  unfold Cert.PairScore.pairRow
  refine congrArg (fun z : Fin 129 → EReal => Cert.PairScore.logSoftmax z c) ?_
  funext k
  rw [sc2_apply]
  refine congrArg (fun x : Fin 512 → EReal => Cert.PairScore.logits (Cert.PairScore.score x x3 x4) k) ?_
  funext e
  exact hid2_apply x0 x1 x2 a b h e

end Cert.KernelIdeal.Pay

end
-- ==== Proof.FusedRegion.lean ====
/-
  What the fused region leaves in the result array.

  The grid is 6 × 6: point (I, J) takes rows 16 I … 16 I + 15 of the dependents' projected array D [96, 16, 512], columns
  16 J … 16 J + 15 of the heads' projected array H [16, 96, 512] (batch first), the whole of the bias and of the relation weights
  and bias, and writes block (I, 0, J, 0) of the [96, 16, 96, 129] result: at (16 I + a, b, 16 J + h, c) the pair's row from
  D[16 I + a, b, ·] and H[b, 16 J + h, ·]. The 36 blocks tile the result, so it ends holding the pair's row at every index.
  The arrays are those the region finds at its entry (the parameter V).
-/
import proofs.«164323_j91199335563522_1_alg».proof.Proof.Gen.KernelIdeal.Frame
import proofs.«164323_j91199335563522_1_alg».proof.Proof.FusedPayload
import Idealize.ShloMosaic.Lib.Pipeline.Value

set_option maxRecDepth 16384

noncomputable section

namespace Cert.KernelIdeal.Val

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz1' : (![0] : Fin 1 → Nat) = fun _ => 0 := funext fun a => by fin_cases a; rfl
theorem hz2' : (![0, 0] : Fin 2 → Nat) = fun _ => 0 := funext fun a => by fin_cases a <;> rfl
theorem hz3' : (![0, 0, 0] : Fin 3 → Nat) = fun _ => 0 := funext fun a => by fin_cases a <;> rfl
theorem hz4' : (![0, 0, 0, 0] : Fin 4 → Nat) = fun _ => 0 := funext fun a => by fin_cases a <;> rfl

/-- The pair's row from the two projected arrays, at (d, b, h, c). -/
def fusedAt (D : S96x16x512.Idx → EReal) (H : S16x96x512.Idx → EReal) (bt : S512.Idx → EReal) (Wp : S128x512.Idx → EReal)
    (bp : S128.Idx → EReal) (d : Fin 96) (b : Fin 16) (h : Fin 96) (c : Fin 129) : EReal :=
  Cert.PairScore.pairRow (fun e => D (ix3 d b e)) (fun e => H (ix3 b h e)) (fun e => bt (ix1 e)) Wp bp c

/-- The array of all the pairs' rows. -/
def fusedArr (D : S96x16x512.Idx → EReal) (H : S16x96x512.Idx → EReal) (bt : S512.Idx → EReal) (Wp : S128x512.Idx → EReal)
    (bp : S128.Idx → EReal) : S96x16x96x129.Idx → EReal :=
  fun i => fusedAt D H bt Wp bp (i 0) (i 1) (i 2) (i 3)

/-- The pair's row depends only on its five arguments. -/
theorem pairRow_congr {u u' v v' w w' : Fin 512 → EReal} {Wp Wp' : (⟨2, ![128, 512]⟩ : Shape).Idx → EReal}
    {bp bp' : (⟨1, ![128]⟩ : Shape).Idx → EReal} (hu : u = u') (hv : v = v') (hw : w = w') (hW : Wp = Wp') (hb : bp = bp') (c : Fin 129) :
    Cert.PairScore.pairRow u v w Wp bp c = Cert.PairScore.pairRow u' v' w' Wp' bp' c := by
  subst hu hv hw hW hb; rfl

/-- The printed index maps over the 36 points: the dependents' block moves with the result's first block index, the heads' block with
    its third, every other block index is zero, and the result's two moving block indices stay below 6. -/
theorem idx2 : ∀ t : Fin cfg2.N,
    win2_0.index t (0 : Fin 3) = win2_5.index t (0 : Fin 4) ∧ win2_0.index t (1 : Fin 3) = 0 ∧ win2_0.index t (2 : Fin 3) = 0
    ∧ win2_1.index t (0 : Fin 3) = 0 ∧ win2_1.index t (1 : Fin 3) = win2_5.index t (2 : Fin 4) ∧ win2_1.index t (2 : Fin 3) = 0
    ∧ win2_2.index t (0 : Fin 1) = 0
    ∧ win2_3.index t (0 : Fin 2) = 0 ∧ win2_3.index t (1 : Fin 2) = 0
    ∧ win2_4.index t (0 : Fin 1) = 0
    ∧ win2_5.index t (1 : Fin 4) = 0 ∧ win2_5.index t (3 : Fin 4) = 0
    ∧ win2_5.index t (0 : Fin 4) ≤ 5 ∧ win2_5.index t (2 : Fin 4) ≤ 5 :=
  (by decide +kernel : ∀ t : Fin grid2.N, _)

/-- Every block (I, 0, J, 0) of the result is some point's. -/
theorem idx_onto2 : ∀ (q0 q2 : Fin 6), ∃ t : Fin cfg2.N, win2_5.index t = ![q0.val, 0, q2.val, 0] :=
  (by decide +kernel : ∀ (q0 q2 : Fin 6), ∃ t : Fin grid2.N, win2_5.index t = ![q0.val, 0, q2.val, 0])

/-- WHAT POINT t WRITES BACK is block t of `fusedArr` of the five arrays the region finds. -/
theorem flushed2 (c : Dev nD) (t : Fin cfg2.N) :
    (dat2 V c).flushed 5 t = ((cfg2.win 5).blk t).view.read (Elt Ideal)
      (fusedArr (V c main_v4) (V c main_v8) (V c main_arg3) (V c main_arg4) (V c main_arg5)) := by
  show (cfg2.win 5).cut (grid2.coords t) ((dat2 V c).after 5 t) = _
  rw [after2_5]
  unfold out2_5
  rw [View.canon_unit_zero hz4']
  simp only [View.ld_unit_zero (S := S16x16x512) hz3', View.ld_unit_zero (S := S512) hz1', View.ld_unit_zero (S := S128x512) hz2',
    View.ld_unit_zero (S := S128) hz1']
  obtain ⟨h00, h01, h02, h10, h11, h12, h2, h30, h31, h4, h51, h53, hI, hJ⟩ := idx2 t
  funext j
  obtain ⟨a, b, h, cc, rfl⟩ : ∃ (a b h : Fin 16) (cc : Fin 129), j = ix4 a b h cc := ⟨j 0, j 1, j 2, j 3, eq_ix4 j⟩
  show k2_pay1 (F := Ideal) (iblk2 V c 0 t) (iblk2 V c 1 t) (iblk2 V c 2 t) (iblk2 V c 3 t) (iblk2 V c 4 t) (ix4 a b h cc)
    = fusedArr (V c main_v4) (V c main_v8) (V c main_arg3) (V c main_arg4) (V c main_arg5) (((cfg2.win 5).blk t).view.emb (ix4 a b h cc))
  refine (Pay.pay2_apply _ _ _ _ _ a b h cc).trans ?_
  have ha : a.val < 16 := a.isLt
  have hh : h.val < 16 := h.isLt
  have e5 : ((cfg2.win 5).blk t).view.emb (ix4 a b h cc)
      = (ix4 (⟨win2_5.index t (0 : Fin 4) * 16 + a.val, by omega⟩ : Fin 96) b (⟨win2_5.index t (2 : Fin 4) * 16 + h.val, by omega⟩ : Fin 96) cc
          : S96x16x96x129.Idx) := by
    funext x; apply Fin.ext
    match x with
    | ⟨0, _⟩ => show win2_5.index t (0 : Fin 4) * 16 + 1 * a.val = win2_5.index t (0 : Fin 4) * 16 + a.val; omega
    | ⟨1, _⟩ => show win2_5.index t (1 : Fin 4) * 16 + 1 * b.val = b.val; omega
    | ⟨2, _⟩ => show win2_5.index t (2 : Fin 4) * 16 + 1 * h.val = win2_5.index t (2 : Fin 4) * 16 + h.val; omega
    | ⟨3, _⟩ => show win2_5.index t (3 : Fin 4) * 129 + 1 * cc.val = cc.val; omega
  rw [e5]
  show _ = fusedAt (V c main_v4) (V c main_v8) (V c main_arg3) (V c main_arg4) (V c main_arg5)
    (⟨win2_5.index t (0 : Fin 4) * 16 + a.val, by omega⟩ : Fin 96) b (⟨win2_5.index t (2 : Fin 4) * 16 + h.val, by omega⟩ : Fin 96) cc
  unfold fusedAt
  refine pairRow_congr (funext fun e => ?_) (funext fun e => ?_) (funext fun e => ?_) (funext fun y => ?_) (funext fun y => ?_) cc
  · have he : e.val < 512 := e.isLt
    refine congrArg (V c main_v4) ?_
    funext x; apply Fin.ext
    match x with
    | ⟨0, _⟩ => show win2_0.index t (0 : Fin 3) * 16 + 1 * a.val = win2_5.index t (0 : Fin 4) * 16 + a.val; omega
    | ⟨1, _⟩ => show win2_0.index t (1 : Fin 3) * 16 + 1 * b.val = b.val; omega
    | ⟨2, _⟩ => show win2_0.index t (2 : Fin 3) * 512 + 1 * e.val = e.val; omega
  · refine congrArg (V c main_v8) ?_
    funext x; apply Fin.ext
    match x with
    | ⟨0, _⟩ => show win2_1.index t (0 : Fin 3) * 16 + 1 * b.val = b.val; omega
    | ⟨1, _⟩ => show win2_1.index t (1 : Fin 3) * 16 + 1 * h.val = win2_5.index t (2 : Fin 4) * 16 + h.val; omega
    | ⟨2, _⟩ => show win2_1.index t (2 : Fin 3) * 512 + 1 * e.val = e.val; omega
  · refine congrArg (V c main_arg3) ?_
    funext x; apply Fin.ext
    match x with
    | ⟨0, _⟩ => show win2_2.index t (0 : Fin 1) * 512 + 1 * e.val = e.val; omega
  · refine congrArg (V c main_arg4) ?_
    funext x; apply Fin.ext
    match x with
    | ⟨0, _⟩ => show win2_3.index t (0 : Fin 2) * 128 + 1 * (y 0).val = (y 0).val; omega
    | ⟨1, _⟩ => show win2_3.index t (1 : Fin 2) * 512 + 1 * (y 1).val = (y 1).val; omega
  · refine congrArg (V c main_arg5) ?_
    funext x; apply Fin.ext
    match x with
    | ⟨0, _⟩ => show win2_4.index t (0 : Fin 1) * 128 + 1 * (y 0).val = (y 0).val; omega

/-- THE RESULT ARRAY after the fused region: the pair's row at every index. -/
theorem arr2 (c : Dev nD) : (dat2 V c).arrAt 5 cfg2.N
    = fusedArr (V c main_v4) (V c main_v8) (V c main_arg3) (V c main_arg4) (V c main_arg5) :=
  (dat2 V c).arrAt_eq_of_cover 5 _ (fun t _ => flushed2 V c t) fun i => by
    have h0 : (i 0).val < 96 := (i 0).isLt
    have h1 : (i 1).val < 16 := (i 1).isLt
    have h2 : (i 2).val < 96 := (i 2).isLt
    have h3 : (i 3).val < 129 := (i 3).isLt
    obtain ⟨t, ht⟩ := idx_onto2 ⟨(i 0).val / 16, by omega⟩ ⟨(i 2).val / 16, by omega⟩
    have q0 : win2_5.index t (0 : Fin 4) = (i 0).val / 16 := congrFun ht 0
    have q1 : win2_5.index t (1 : Fin 4) = 0 := congrFun ht 1
    have q2 : win2_5.index t (2 : Fin 4) = (i 2).val / 16 := congrFun ht 2
    have q3 : win2_5.index t (3 : Fin 4) = 0 := congrFun ht 3
    refine ⟨t, flush2_5 t, ?_⟩
    show i ∈ ((View.whole main_v9).slice (win2_5.rect t)).set
    rw [View.set_slice_whole, Rect.mem_set_unit]
    intro x
    match x with
    | ⟨0, _⟩ => show win2_5.index t (0 : Fin 4) * 16 ≤ (i 0).val ∧ (i 0).val < win2_5.index t (0 : Fin 4) * 16 + 16; omega
    | ⟨1, _⟩ => show win2_5.index t (1 : Fin 4) * 16 ≤ (i 1).val ∧ (i 1).val < win2_5.index t (1 : Fin 4) * 16 + 16; omega
    | ⟨2, _⟩ => show win2_5.index t (2 : Fin 4) * 16 ≤ (i 2).val ∧ (i 2).val < win2_5.index t (2 : Fin 4) * 16 + 16; omega
    | ⟨3, _⟩ => show win2_5.index t (3 : Fin 4) * 129 ≤ (i 3).val ∧ (i 3).val < win2_5.index t (3 : Fin 4) * 129 + 129; omega

end Cert.KernelIdeal.Val

end
-- ==== Proof.Fold.lean ====
/-
  What the regions find at their entries, read back through @main's host stretches.

  Before region 0: main_v0 / main_v1 are the two column halves of Wt, main_v2 is outs with its first two axes merged.
  Before region 1: main_v6 is the graph state with its first two axes swapped and then merged; main_v1 is still Wt's second half.
  Before region 2: main_v4 is region 0's result array with its first axis split back (96 × 16), main_v8 is region 1's result array
  with its first axis split (16 × 96), and the bias and the relation weights and bias are as launched: no host operation and no
  earlier region writes them.
-/
import proofs.«164323_j91199335563522_1_alg».proof.Proof.Gen.KernelIdeal.Frame
import Idealize.ShloMosaic.Lib.Pipeline.Value
import Idealize.ShloMosaic.Lib.StableHlo.Run

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- A host stretch leaves a buffer none of its operations writes as it was. -/
local macro "stretch_keeps" ops:ident : tactic =>
  `(tactic| exact StableHlo.after_of_forall_not_mem _ _ (List.forall_iff_forall_mem.mp (by
      simp only [$ops:ident, List.Forall, StableHlo.unary_writes, StableHlo.reshape_writes, Finset.mem_singleton]
      repeat' apply And.intro
      all_goals exact StableHlo.devRef_ne_of_ne (by decide))))

/-! ## Region 0's entry -/

/-- outs with its first two axes merged. -/
theorem V1_v2 (c : Dev nD) : (V1 m ρ c main_v2 : S1536x512.Idx → Elt F .f32)
    = shapeCast S1536x512 (m ((c : Thread nD τ).loc main_arg0)) shapeCasts_S96x16x512_S1536x512 := by
  show StableHlo.after hostOps0 (W0 m ρ c) (Proc.devRef .tc main_v2) = _
  after_results
  rfl

/-- Wt's first 512 columns. -/
theorem V1_v0 (c : Dev nD) : (V1 m ρ c main_v0 : S512x512.Idx → Elt F .f32)
    = extractStridedSlice S512x512 ![0, 0] (m ((c : Thread nD τ).loc main_arg2)) slices_S512x1024_S512x512_0_0 := by
  show StableHlo.after hostOps0 (W0 m ρ c) (Proc.devRef .tc main_v0) = _
  after_results

/-- Wt's last 512 columns. -/
theorem V1_v1 (c : Dev nD) : (V1 m ρ c main_v1 : S512x512.Idx → Elt F .f32)
    = extractStridedSlice S512x512 ![0, 512] (m ((c : Thread nD τ).loc main_arg2)) slices_S512x1024_S512x512_0_512 := by
  show StableHlo.after hostOps0 (W0 m ρ c) (Proc.devRef .tc main_v1) = _
  after_results

/-! ## Region 1's entry -/

/-- Wt's second half is untouched by region 0 and by the stretch after it. -/
theorem V3_v1 (c : Dev nD) : V3 m ρ c main_v1 = V1 m ρ c main_v1 :=
  calc W3 m ρ c (Proc.devRef .tc main_v1)
    _ = W2 m ρ c (Proc.devRef .tc main_v1) := by stretch_keeps hostOps1
    _ = W1 m ρ c (Proc.devRef .tc main_v1) := W2_of_ne m ρ c main_v1 (by decide)

/-- The graph state is as launched when the stretch before region 1 reads it. -/
theorem W2_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := by stretch_keeps hostOps0
    _ = m ((c : Thread nD τ).loc main_arg1) := rfl

/-- The graph state with its first two axes swapped, then merged. -/
theorem V3_v6 (c : Dev nD) : (V3 m ρ c main_v6 : S1536x512.Idx → Elt F .f32)
    = shapeCast S1536x512 (transpose S16x96x512 [1, 0, 2] (m ((c : Thread nD τ).loc main_arg1)) transposes_S96x16x512_S16x96x512_1_0_2)
        shapeCasts_S16x96x512_S1536x512 := by
  show StableHlo.after hostOps1 (W2 m ρ c) (Proc.devRef .tc main_v6) = _
  after_results
  rw [W2_arg1]
  rfl

/-! ## Region 2's entry -/

/-- Region 0's result array with its first axis split back into (96, 16). -/
theorem V5_v4 (c : Dev nD) : (V5 m ρ c main_v4 : S96x16x512.Idx → Elt F .f32)
    = shapeCast S96x16x512 ((dat0 (V1 m ρ) c).arrAt 2 cfg0.N) shapeCasts_S1536x512_S96x16x512 := by
  have h5 : W5 m ρ c (Proc.devRef .tc main_v4) = W4 m ρ c (Proc.devRef .tc main_v4) := by stretch_keeps hostOps2
  have h4 : W4 m ρ c (Proc.devRef .tc main_v4) = W3 m ρ c (Proc.devRef .tc main_v4) := W4_of_ne m ρ c main_v4 (by decide)
  show W5 m ρ c (Proc.devRef .tc main_v4) = _
  rw [h5, h4]
  show StableHlo.after hostOps1 (W2 m ρ c) (Proc.devRef .tc main_v4) = _
  after_results
  rw [show W2 m ρ c (Proc.devRef .tc main_v3) = (dat0 (V1 m ρ) c).arrAt 2 cfg0.N from W2_arr m ρ c 2]
  rfl

/-- Region 1's result array with its first axis split into (16, 96). -/
theorem V5_v8 (c : Dev nD) : (V5 m ρ c main_v8 : S16x96x512.Idx → Elt F .f32)
    = shapeCast S16x96x512 ((dat1 (V3 m ρ) c).arrAt 2 cfg1.N) shapeCasts_S1536x512_S16x96x512 := by
  show StableHlo.after hostOps2 (W4 m ρ c) (Proc.devRef .tc main_v8) = _
  after_results
  rw [show W4 m ρ c (Proc.devRef .tc main_v7) = (dat1 (V3 m ρ) c).arrAt 2 cfg1.N from W4_arr m ρ c 2]
  rfl

/-- The bias is as launched. -/
theorem V5_arg3 (c : Dev nD) : V5 m ρ c main_arg3 = m ((c : Thread nD τ).loc main_arg3) :=
  calc W5 m ρ c (Proc.devRef .tc main_arg3)
    _ = W4 m ρ c (Proc.devRef .tc main_arg3) := by stretch_keeps hostOps2
    _ = W3 m ρ c (Proc.devRef .tc main_arg3) := W4_of_ne m ρ c main_arg3 (by decide)
    _ = W2 m ρ c (Proc.devRef .tc main_arg3) := by stretch_keeps hostOps1
    _ = W1 m ρ c (Proc.devRef .tc main_arg3) := W2_of_ne m ρ c main_arg3 (by decide)
    _ = W0 m ρ c (Proc.devRef .tc main_arg3) := by stretch_keeps hostOps0
    _ = m ((c : Thread nD τ).loc main_arg3) := rfl

/-- The relation weights are as launched. -/
theorem V5_arg4 (c : Dev nD) : V5 m ρ c main_arg4 = m ((c : Thread nD τ).loc main_arg4) :=
  calc W5 m ρ c (Proc.devRef .tc main_arg4)
    _ = W4 m ρ c (Proc.devRef .tc main_arg4) := by stretch_keeps hostOps2
    _ = W3 m ρ c (Proc.devRef .tc main_arg4) := W4_of_ne m ρ c main_arg4 (by decide)
    _ = W2 m ρ c (Proc.devRef .tc main_arg4) := by stretch_keeps hostOps1
    _ = W1 m ρ c (Proc.devRef .tc main_arg4) := W2_of_ne m ρ c main_arg4 (by decide)
    _ = W0 m ρ c (Proc.devRef .tc main_arg4) := by stretch_keeps hostOps0
    _ = m ((c : Thread nD τ).loc main_arg4) := rfl

/-- The relation bias is as launched. -/
theorem V5_arg5 (c : Dev nD) : V5 m ρ c main_arg5 = m ((c : Thread nD τ).loc main_arg5) :=
  calc W5 m ρ c (Proc.devRef .tc main_arg5)
    _ = W4 m ρ c (Proc.devRef .tc main_arg5) := by stretch_keeps hostOps2
    _ = W3 m ρ c (Proc.devRef .tc main_arg5) := W4_of_ne m ρ c main_arg5 (by decide)
    _ = W2 m ρ c (Proc.devRef .tc main_arg5) := by stretch_keeps hostOps1
    _ = W1 m ρ c (Proc.devRef .tc main_arg5) := W2_of_ne m ρ c main_arg5 (by decide)
    _ = W0 m ρ c (Proc.devRef .tc main_arg5) := by stretch_keeps hostOps0
    _ = m ((c : Thread nD τ).loc main_arg5) := rfl

end Cert.KernelIdeal.Val

end
-- ==== Proof.KernelValue.lean ====
/-
  The kernel's result array is the specification's.

  Region 2 finds, at main_v4, region 0's array with its first axis split: at (d, b, e) that is row 16 d + b of outs (merged) against
  row e of Wt's first half, the dependent's projection; at main_v8, region 1's array with its first axis split: at (b, h, e) row
  96 b + h of the swapped and merged graph state, which is row (h, b) of the graph state, against row e of Wt's second half, the
  head's projection. With the bias and the relation weights and bias as launched, the pair's row region 2 leaves at (d, b, h, c)
  is the specification's.
-/
import proofs.«164323_j91199335563522_1_alg».proof.Proof.KernelRun
import proofs.«164323_j91199335563522_1_alg».proof.Proof.ProjRegion
import proofs.«164323_j91199335563522_1_alg».proof.Proof.FusedRegion
import proofs.«164323_j91199335563522_1_alg».proof.Proof.Fold
import proofs.«164323_j91199335563522_1_alg».proof.Proof.Spec

set_option maxRecDepth 16384

noncomputable section

namespace Cert.KernelIdeal.Val

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- Row 16 d + b of the merged outs is row (d, b) of outs. -/
theorem outs_row (c : Dev nD) (d : Fin 96) (b : Fin 16) (k : Fin 512) :
    (V1 m ρ c main_v2 : S1536x512.Idx → EReal) (ix2 (⟨16 * d.val + b.val, by omega⟩ : Fin 1536) k)
      = (m ((c : Thread nD τ).loc main_arg0) : S96x16x512.Idx → EReal) (ix3 d b k) := by
  rw [V1_v2]
  refine shapeCast_apply _ _ _ (ix3 d b k) ?_
  rw [Shape.rowMajor_val_three, Shape.rowMajor_val_two]
  show (d.val * 16 + b.val) * 512 + k.val = (16 * d.val + b.val) * 512 + k.val
  omega

/-- Row e of Wt's first half at column k is Wt at (e, k). -/
theorem wt_lo (c : Dev nD) (e k : Fin 512) :
    (V1 m ρ c main_v0 : S512x512.Idx → EReal) (ix2 e k)
      = (m ((c : Thread nD τ).loc main_arg2) : S512x1024.Idx → EReal) (ix2 e (Cert.PairScore.lo k)) := by
  rw [V1_v0]
  refine extractStridedSlice_apply ![0, 0] _ slices_S512x1024_S512x512_0_0 (ix2 e k) (ix2 e (Cert.PairScore.lo k)) (fun a => ?_)
  match a with
  | ⟨0, _⟩ => show e.val = 0 + e.val; omega
  | ⟨1, _⟩ => show k.val = 0 + k.val; omega

/-- Row e of Wt's second half at column k is Wt at (e, 512 + k). -/
theorem wt_hi (c : Dev nD) (e k : Fin 512) :
    (V3 m ρ c main_v1 : S512x512.Idx → EReal) (ix2 e k)
      = (m ((c : Thread nD τ).loc main_arg2) : S512x1024.Idx → EReal) (ix2 e (Cert.PairScore.hi k)) := by
  rw [V3_v1, V1_v1]
  refine extractStridedSlice_apply ![0, 512] _ slices_S512x1024_S512x512_0_512 (ix2 e k) (ix2 e (Cert.PairScore.hi k)) (fun a => ?_)
  match a with
  | ⟨0, _⟩ => show e.val = 0 + e.val; omega
  | ⟨1, _⟩ => show 512 + k.val = 512 + k.val; rfl

/-- Row 96 b + h of the swapped and merged graph state is row (h, b) of the graph state. -/
theorem gs_row (c : Dev nD) (b : Fin 16) (h : Fin 96) (k : Fin 512) :
    (V3 m ρ c main_v6 : S1536x512.Idx → EReal) (ix2 (⟨96 * b.val + h.val, by omega⟩ : Fin 1536) k)
      = (m ((c : Thread nD τ).loc main_arg1) : S96x16x512.Idx → EReal) (ix3 h b k) := by
  rw [V3_v6]
  refine (shapeCast_apply _ _ _ (ix3 b h k : S16x96x512.Idx) ?_).trans ?_
  · rw [Shape.rowMajor_val_three, Shape.rowMajor_val_two]
    show (b.val * 96 + h.val) * 512 + k.val = (96 * b.val + h.val) * 512 + k.val
    omega
  · refine transpose_apply [1, 0, 2] _ transposes_S96x16x512_S16x96x512_1_0_2 (ix3 b h k) (ix3 h b k) (fun x => ?_)
    match x with
    | ⟨0, _⟩ => rfl
    | ⟨1, _⟩ => rfl
    | ⟨2, _⟩ => rfl

/-- What region 2 finds at main_v4, at (d, b, e), is the dependent's projection. -/
theorem dep_at (c : Dev nD) (d : Fin 96) (b : Fin 16) (e : Fin 512) :
    (V5 m ρ c main_v4 : S96x16x512.Idx → EReal) (ix3 d b e)
      = Cert.PairScore.depProj (m ((c : Thread nD τ).loc main_arg0)) (m ((c : Thread nD τ).loc main_arg2)) d b e := by
  rw [V5_v4]
  refine (shapeCast_apply _ _ _ (ix2 (⟨16 * d.val + b.val, by omega⟩ : Fin 1536) e : S1536x512.Idx) ?_).trans ?_
  · rw [Shape.rowMajor_val_three, Shape.rowMajor_val_two]
    show (16 * d.val + b.val) * 512 + e.val = (d.val * 16 + b.val) * 512 + e.val
    omega
  · rw [arr0]
    show rowsAt (V1 m ρ c main_v2) (V1 m ρ c main_v0) (⟨16 * d.val + b.val, by omega⟩ : Fin 1536) e = _
    unfold rowsAt Cert.PairScore.depProj
    exact Finset.sum_congr rfl fun k _ => congrArg₂ (fun u v : EReal => u * v) (outs_row m ρ c d b k) (wt_lo m ρ c e k)

/-- What region 2 finds at main_v8, at (b, h, e), is the head's projection. -/
theorem head_at (c : Dev nD) (b : Fin 16) (h : Fin 96) (e : Fin 512) :
    (V5 m ρ c main_v8 : S16x96x512.Idx → EReal) (ix3 b h e)
      = Cert.PairScore.headProj (m ((c : Thread nD τ).loc main_arg1)) (m ((c : Thread nD τ).loc main_arg2)) h b e := by
  rw [V5_v8]
  refine (shapeCast_apply _ _ _ (ix2 (⟨96 * b.val + h.val, by omega⟩ : Fin 1536) e : S1536x512.Idx) ?_).trans ?_
  · rw [Shape.rowMajor_val_three, Shape.rowMajor_val_two]
    show (96 * b.val + h.val) * 512 + e.val = (b.val * 96 + h.val) * 512 + e.val
    omega
  · rw [arr1]
    show rowsAt (V3 m ρ c main_v6) (V3 m ρ c main_v1) (⟨96 * b.val + h.val, by omega⟩ : Fin 1536) e = _
    unfold rowsAt Cert.PairScore.headProj
    exact Finset.sum_congr rfl fun k _ => congrArg₂ (fun u v : EReal => u * v) (gs_row m ρ c b h k) (wt_hi m ρ c e k)

/-- THE KERNEL'S RESULT ARRAY, at the last boundary of @main, is the specification's array of the six arguments. -/
theorem result_eq (c : Dev nD) :
    W6 m ρ c (Proc.devRef .tc main_v9)
      = Cert.PairScore.result (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  refine (W6_arr m ρ c 5).trans ?_
  rw [arr2]
  funext i
  show fusedAt (V5 m ρ c main_v4) (V5 m ρ c main_v8) (V5 m ρ c main_arg3) (V5 m ρ c main_arg4) (V5 m ρ c main_arg5) (i 0) (i 1) (i 2) (i 3)
    = Cert.PairScore.resultAt _ _ _ _ _ _ (i 0) (i 1) (i 2) (i 3)
  unfold fusedAt Cert.PairScore.resultAt
  refine pairRow_congr (funext fun e => dep_at m ρ c (i 0) (i 1) e) (funext fun e => head_at m ρ c (i 1) (i 2) e)
    (funext fun e => ?_) (V5_arg4 m ρ c) (V5_arg5 m ρ c) (i 3)
  rw [V5_arg3]

/-- THE KERNEL'S RUN, READ: every weakly fair execution ends with the result array at the specification's array of the arguments, the
    arguments unchanged. -/
theorem run : θ_run defs (onTc (τ := τ) (main (F := Ideal))) ⟨m, fun _ => 0, ρ⟩ (fun r => ∀ c : Dev nD,
      r.2.mem ((c.tc : Thread nD τ).loc main_v9)
        = Cert.PairScore.result (m ((c : Thread nD τ).loc main_arg0)) (m ((c : Thread nD τ).loc main_arg1))
            (m ((c : Thread nD τ).loc main_arg2)) (m ((c : Thread nD τ).loc main_arg3)) (m ((c : Thread nD τ).loc main_arg4))
            (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (result_eq m ρ c), (h c).2⟩) (Cert.KernelIdeal.Named.run_named m ρ)

end Cert.KernelIdeal.Val

end
-- ==== Proof.RefValue.lean ====
/-
  The reference's result is the specification's array.

  Read one operation at a time (the generated read-at-an-index lemmas; the concatenation and the max-reduction, which they leave
  out, by the library's lemmas for a two-piece concatenation and a one-axis fold), the reference's term at (d, b, h, c) is the
  log-softmax at column c of the 129 logits of the pair (d, h) in batch entry b.
-/
import proofs.«164323_j91199335563522_1_alg».proof.Proof.RefRead
import proofs.«164323_j91199335563522_1_alg».proof.Proof.Spec
import Idealize.ShloMosaic.Lib.IdealHost

noncomputable section

namespace Cert.ReferenceIdeal.RefValue

open Cert.ReferenceIdeal Cert.ReferenceIdeal.Gen Cert.ReferenceIdeal.ReadP Idealize.ShloMosaic Idealize.ShloMosaic.ValueIdx

/-- The first projection at (d, b, e): row (d, b) of the first array against row e of the weight's first 512 columns. -/
theorem v1_at (x0 : (⟨S96x16x512, .f32⟩ : BufTy).Contents (Elt Ideal)) (x2 : (⟨S512x1024, .f32⟩ : BufTy).Contents (Elt Ideal))
    (d : Fin 96) (b : Fin 16) (e : Fin 512) :
    val_main_v1 (F := Ideal) x0 x2 (ix3 d b e) = Cert.PairScore.depProj x0 x2 d b e := by
  rw [val_main_v1_apply]
  unfold Cert.PairScore.depProj
  refine Finset.sum_congr rfl fun k _ => ?_
  rw [val_main_v0_apply]
  have e1 : lidx_main_v1 (ix3 d b e) k = ix3 d b k :=
    funext fun a => Fin.ext (by match a with | ⟨0, _⟩ => rfl | ⟨1, _⟩ => rfl | ⟨2, _⟩ => rfl)
  have e2 : idx_main_v0 (ridx_main_v1 (ix3 d b e) k) = ix2 e (Cert.PairScore.lo k) :=
    funext fun a => Fin.ext (by match a with | ⟨0, _⟩ => rfl | ⟨1, _⟩ => rfl)
  rw [e1, e2]

/-- The second projection at (h, b, e): row (h, b) of the second array against row e of the weight's last 512 columns. -/
theorem v3_at (x1 : (⟨S96x16x512, .f32⟩ : BufTy).Contents (Elt Ideal)) (x2 : (⟨S512x1024, .f32⟩ : BufTy).Contents (Elt Ideal))
    (h : Fin 96) (b : Fin 16) (e : Fin 512) :
    val_main_v3 (F := Ideal) x1 x2 (ix3 h b e) = Cert.PairScore.headProj x1 x2 h b e := by
  rw [val_main_v3_apply]
  unfold Cert.PairScore.headProj
  refine Finset.sum_congr rfl fun k _ => ?_
  rw [val_main_v2_apply]
  have e1 : lidx_main_v3 (ix3 h b e) k = ix3 h b k :=
    funext fun a => Fin.ext (by match a with | ⟨0, _⟩ => rfl | ⟨1, _⟩ => rfl | ⟨2, _⟩ => rfl)
  have e2 : idx_main_v2 (ridx_main_v3 (ix3 h b e) k) = ix2 e (Cert.PairScore.hi k) :=
    funext fun a => Fin.ext (by match a with | ⟨0, _⟩ => rfl | ⟨1, _⟩ => rfl)
  rw [e1, e2]

/-- The rectified hidden entry at (d, b, h, e): the two projections and the bias, grouped (u + v) + w, against the zero word. -/
theorem v13_at (x0 x1 : (⟨S96x16x512, .f32⟩ : BufTy).Contents (Elt Ideal)) (x2 : (⟨S512x1024, .f32⟩ : BufTy).Contents (Elt Ideal))
    (x3 : (⟨S512, .f32⟩ : BufTy).Contents (Elt Ideal)) (d : Fin 96) (b : Fin 16) (h : Fin 96) (e : Fin 512) :
    val_main_v13 (F := Ideal) x0 x1 x2 x3 (ix4 d b h e)
      = Cert.PairScore.hidden (Cert.PairScore.depProj x0 x2 d b e) (Cert.PairScore.headProj x1 x2 h b e) (x3 (ix1 e)) := by
  rw [val_main_v13_apply, val_main_v12_apply, val_main_v9_apply, val_main_v7_apply, val_main_v4_apply, val_main_v8_apply,
    val_main_v6_apply, val_main_v5_apply, val_main_v11_apply, val_main_v10_apply, val_main_call0_v0_apply, val_main_call0_cst_apply]
  have e1 : idx_main_v4 (idx_main_v7 (ix4 d b h e)) = ix3 d b e :=
    funext fun a => Fin.ext (by match a with | ⟨0, _⟩ => rfl | ⟨1, _⟩ => rfl | ⟨2, _⟩ => rfl)
  have e2 : idx_main_v5 (idx_main_v6 (idx_main_v8 (ix4 d b h e))) = ix3 h b e :=
    funext fun a => Fin.ext (by match a with | ⟨0, _⟩ => rfl | ⟨1, _⟩ => rfl | ⟨2, _⟩ => rfl)
  have e3 : idx_main_v10 (idx_main_v11 (ix4 d b h e)) = ix1 e :=
    funext fun a => Fin.ext (by match a with | ⟨0, _⟩ => rfl)
  rw [e1, e2, e3, v1_at, v3_at]
  rfl

/-- One relation's score at (d, b, h, r): the hidden row against row r of the second weight, plus the bias. -/
theorem v17_at (x0 x1 : (⟨S96x16x512, .f32⟩ : BufTy).Contents (Elt Ideal)) (x2 : (⟨S512x1024, .f32⟩ : BufTy).Contents (Elt Ideal))
    (x3 : (⟨S512, .f32⟩ : BufTy).Contents (Elt Ideal)) (x4 : (⟨S128x512, .f32⟩ : BufTy).Contents (Elt Ideal))
    (x5 : (⟨S128, .f32⟩ : BufTy).Contents (Elt Ideal)) (d : Fin 96) (b : Fin 16) (h : Fin 96) (r : Fin 128) :
    val_main_v17 (F := Ideal) x0 x1 x2 x3 x4 x5 (ix4 d b h r)
      = Cert.PairScore.score (fun e => Cert.PairScore.hidden (Cert.PairScore.depProj x0 x2 d b e)
          (Cert.PairScore.headProj x1 x2 h b e) (x3 (ix1 e))) x4 x5 r := by
  rw [val_main_v17_apply, val_main_v14_apply, val_main_v16_apply, val_main_v15_apply]
  unfold Cert.PairScore.score
  have e3 : idx_main_v15 (idx_main_v16 (ix4 d b h r)) = ix1 r :=
    funext fun a => Fin.ext (by match a with | ⟨0, _⟩ => rfl)
  rw [e3]
  refine congrArg (· + x5 (ix1 r)) (Finset.sum_congr rfl fun k _ => ?_)
  have e1 : lidx_main_v14 (ix4 d b h r) k = ix4 d b h k :=
    funext fun a => Fin.ext (by match a with | ⟨0, _⟩ => rfl | ⟨1, _⟩ => rfl | ⟨2, _⟩ => rfl | ⟨3, _⟩ => rfl)
  have e2 : ridx_main_v14 (ix4 d b h r) k = ix2 r k :=
    funext fun a => Fin.ext (by match a with | ⟨0, _⟩ => rfl | ⟨1, _⟩ => rfl)
  rw [e1, e2, v13_at]

/-- The 129 logits at (d, b, h, c): the zero word in column 0, the score of relation c − 1 behind it. -/
theorem v19_at (x0 x1 : (⟨S96x16x512, .f32⟩ : BufTy).Contents (Elt Ideal)) (x2 : (⟨S512x1024, .f32⟩ : BufTy).Contents (Elt Ideal))
    (x3 : (⟨S512, .f32⟩ : BufTy).Contents (Elt Ideal)) (x4 : (⟨S128x512, .f32⟩ : BufTy).Contents (Elt Ideal))
    (x5 : (⟨S128, .f32⟩ : BufTy).Contents (Elt Ideal)) (d : Fin 96) (b : Fin 16) (h : Fin 96) (c : Fin 129) :
    val_main_v19 (F := Ideal) x0 x1 x2 x3 x4 x5 (ix4 d b h c)
      = Cert.PairScore.logits (Cert.PairScore.score (fun e => Cert.PairScore.hidden (Cert.PairScore.depProj x0 x2 d b e)
          (Cert.PairScore.headProj x1 x2 h b e) (x3 (ix1 e))) x4 x5) c := by
  unfold val_main_v19 Cert.PairScore.logits
  by_cases hc : c.val = 0
  · rw [dif_pos hc]
    refine (concatenate_pair_apply_left _ _ _ concatenates_S96x16x96x1_S96x16x96x128_S96x16x96x129_d3 (ix4 d b h c) rfl
      (ix4 d b h (0 : Fin 1)) ?_).trans ?_
    · intro a
      match a with
      | ⟨0, _⟩ => rfl
      | ⟨1, _⟩ => rfl
      | ⟨2, _⟩ => rfl
      | ⟨3, _⟩ => exact hc.symm
    · rw [val_main_v18_apply, val_main_cst_apply]; rfl
  · rw [dif_neg hc]
    refine (concatenate_pair_apply_right _ _ _ concatenates_S96x16x96x1_S96x16x96x128_S96x16x96x129_d3 (ix4 d b h c) rfl rfl
      (ix4 d b h (⟨c.val - 1, by have := c.isLt; omega⟩ : Fin 128)) ?_ ?_).trans ?_
    · intro a ha
      match a, ha with
      | ⟨0, _⟩, _ => rfl
      | ⟨1, _⟩, _ => rfl
      | ⟨2, _⟩, _ => rfl
      | ⟨3, _⟩, ha => exact absurd rfl ha
    · show (c.val - 1) + 1 = c.val
      omega
    · exact v17_at x0 x1 x2 x3 x4 x5 d b h _

/-- Dropping the last axis of a [96, 16, 96, 129] array leaves a [96, 16, 96] one. -/
theorem reduces_row : S96x16x96x129.Reduces [3] S96x16x96 := by decide

/-- The max-reduction over the row at (d, b, h): the fold of max over the 129 columns, from the −∞ word. -/
theorem call1_v0_at (x0 x1 : (⟨S96x16x512, .f32⟩ : BufTy).Contents (Elt Ideal)) (x2 : (⟨S512x1024, .f32⟩ : BufTy).Contents (Elt Ideal))
    (x3 : (⟨S512, .f32⟩ : BufTy).Contents (Elt Ideal)) (x4 : (⟨S128x512, .f32⟩ : BufTy).Contents (Elt Ideal))
    (x5 : (⟨S128, .f32⟩ : BufTy).Contents (Elt Ideal)) (d : Fin 96) (b : Fin 16) (h : Fin 96) :
    val_main_call1_v0 (F := Ideal) x0 x1 x2 x3 x4 x5 (ix3 d b h)
      = (Finset.univ : Finset (Fin 129)).fold max Cert.PairScore.negInfW
          (fun k => val_main_v19 (F := Ideal) x0 x1 x2 x3 x4 x5 (ix4 d b h k)) := by
  unfold val_main_call1_v0
  generalize val_main_v19 (F := Ideal) x0 x1 x2 x3 x4 x5 = y
  refine (Host.reduce_eq_fold_single (α := EReal) (FloatOps.maximumf (F := Ideal) (φ := .f32)) y (val_main_call1_cst (F := Ideal))
    reducesTo_S96x16x96x129_S96x16x96_d3 reduces_row h_S_ (ix3 d b h)).trans ?_
  have el : (y ∘ reduces_row.lift (ix3 d b h)) = fun k : Fin 129 => y (ix4 d b h k) :=
    funext fun k => congrArg y (funext fun a => Fin.ext (by
      match a with
      | ⟨0, _⟩ => rfl
      | ⟨1, _⟩ => rfl
      | ⟨2, _⟩ => rfl
      | ⟨3, _⟩ => rfl))
  rw [el]
  rfl

/-- The row's maximum as the program takes it at (d, b, h): the −∞ word against the fold. -/
theorem call1_v2_at (x0 x1 : (⟨S96x16x512, .f32⟩ : BufTy).Contents (Elt Ideal)) (x2 : (⟨S512x1024, .f32⟩ : BufTy).Contents (Elt Ideal))
    (x3 : (⟨S512, .f32⟩ : BufTy).Contents (Elt Ideal)) (x4 : (⟨S128x512, .f32⟩ : BufTy).Contents (Elt Ideal))
    (x5 : (⟨S128, .f32⟩ : BufTy).Contents (Elt Ideal)) (d : Fin 96) (b : Fin 16) (h : Fin 96) :
    val_main_call1_v2 (F := Ideal) x0 x1 x2 x3 x4 x5 (ix3 d b h)
      = Cert.PairScore.rowMax (fun k => val_main_v19 (F := Ideal) x0 x1 x2 x3 x4 x5 (ix4 d b h k)) := by
  rw [val_main_call1_v2_apply, val_main_call1_v1_apply, val_main_call1_cst_0_apply, call1_v0_at]
  rfl

/-- The shifted logit at (d, b, h, c): the logit less the row's maximum. -/
theorem call1_v5_at (x0 x1 : (⟨S96x16x512, .f32⟩ : BufTy).Contents (Elt Ideal)) (x2 : (⟨S512x1024, .f32⟩ : BufTy).Contents (Elt Ideal))
    (x3 : (⟨S512, .f32⟩ : BufTy).Contents (Elt Ideal)) (x4 : (⟨S128x512, .f32⟩ : BufTy).Contents (Elt Ideal))
    (x5 : (⟨S128, .f32⟩ : BufTy).Contents (Elt Ideal)) (d : Fin 96) (b : Fin 16) (h : Fin 96) (c : Fin 129) :
    val_main_call1_v5 (F := Ideal) x0 x1 x2 x3 x4 x5 (ix4 d b h c)
      = val_main_v19 (F := Ideal) x0 x1 x2 x3 x4 x5 (ix4 d b h c)
        - Cert.PairScore.rowMax (fun k => val_main_v19 (F := Ideal) x0 x1 x2 x3 x4 x5 (ix4 d b h k)) := by
  rw [val_main_call1_v5_apply, val_main_call1_v4_apply, val_main_call1_v3_apply]
  have e1 : idx_main_call1_v3 (idx_main_call1_v4 (ix4 d b h c)) = ix3 d b h :=
    funext fun a => Fin.ext (by match a with | ⟨0, _⟩ => rfl | ⟨1, _⟩ => rfl | ⟨2, _⟩ => rfl)
  rw [e1, call1_v2_at]
  rfl

/-- The sum of the exponentials of the shifted logits at (d, b, h). -/
theorem call1_v7_at (x0 x1 : (⟨S96x16x512, .f32⟩ : BufTy).Contents (Elt Ideal)) (x2 : (⟨S512x1024, .f32⟩ : BufTy).Contents (Elt Ideal))
    (x3 : (⟨S512, .f32⟩ : BufTy).Contents (Elt Ideal)) (x4 : (⟨S128x512, .f32⟩ : BufTy).Contents (Elt Ideal))
    (x5 : (⟨S128, .f32⟩ : BufTy).Contents (Elt Ideal)) (d : Fin 96) (b : Fin 16) (h : Fin 96) :
    val_main_call1_v7 (F := Ideal) x0 x1 x2 x3 x4 x5 (ix3 d b h)
      = ∑ k : Fin 129, Ideal.exp (val_main_v19 (F := Ideal) x0 x1 x2 x3 x4 x5 (ix4 d b h k)
          - Cert.PairScore.rowMax (fun k => val_main_v19 (F := Ideal) x0 x1 x2 x3 x4 x5 (ix4 d b h k))) := by
  rw [val_main_call1_v7_apply, val_main_call1_cst_1_apply, Ideal.ofBits_def, Ideal.ofBits_zero_f32, zero_add]
  refine Finset.sum_congr rfl fun k _ => ?_
  have e1 : idx_main_call1_v7 (ix3 d b h) k = ix4 d b h k :=
    funext fun a => Fin.ext (by match a with | ⟨0, _⟩ => rfl | ⟨1, _⟩ => rfl | ⟨2, _⟩ => rfl | ⟨3, _⟩ => rfl)
  rw [e1, val_main_call1_v6_apply, call1_v5_at, Ideal.hostUnary_exp_def]

/-- The reference's term at (d, b, h, c) is the log-softmax at column c of the row of logits. -/
theorem v20_at (x0 x1 : (⟨S96x16x512, .f32⟩ : BufTy).Contents (Elt Ideal)) (x2 : (⟨S512x1024, .f32⟩ : BufTy).Contents (Elt Ideal))
    (x3 : (⟨S512, .f32⟩ : BufTy).Contents (Elt Ideal)) (x4 : (⟨S128x512, .f32⟩ : BufTy).Contents (Elt Ideal))
    (x5 : (⟨S128, .f32⟩ : BufTy).Contents (Elt Ideal)) (d : Fin 96) (b : Fin 16) (h : Fin 96) (c : Fin 129) :
    val_main_v20 (F := Ideal) x0 x1 x2 x3 x4 x5 (ix4 d b h c)
      = Cert.PairScore.logSoftmax (fun k => val_main_v19 (F := Ideal) x0 x1 x2 x3 x4 x5 (ix4 d b h k)) c := by
  rw [val_main_v20_apply, val_main_call1_v10_apply, val_main_call1_v9_apply, val_main_call1_v8_apply]
  have e1 : idx_main_call1_v8 (idx_main_call1_v10 (ix4 d b h c)) = ix3 d b h :=
    funext fun a => Fin.ext (by match a with | ⟨0, _⟩ => rfl | ⟨1, _⟩ => rfl | ⟨2, _⟩ => rfl)
  rw [e1, call1_v7_at, call1_v5_at, Ideal.hostUnary_log_def]
  rfl

/-- THE REFERENCE'S RESULT, of the six argument arrays, is `Cert.PairScore.result` of them. -/
theorem ref_result (x0 x1 : (⟨S96x16x512, .f32⟩ : BufTy).Contents (Elt Ideal)) (x2 : (⟨S512x1024, .f32⟩ : BufTy).Contents (Elt Ideal))
    (x3 : (⟨S512, .f32⟩ : BufTy).Contents (Elt Ideal)) (x4 : (⟨S128x512, .f32⟩ : BufTy).Contents (Elt Ideal))
    (x5 : (⟨S128, .f32⟩ : BufTy).Contents (Elt Ideal)) :
    val_main_v20 (F := Ideal) x0 x1 x2 x3 x4 x5 = Cert.PairScore.result x0 x1 x2 x3 x4 x5 := by
  funext i
  obtain ⟨d, b, h, c, rfl⟩ : ∃ (d : Fin 96) (b : Fin 16) (h : Fin 96) (c : Fin 129), i = ix4 d b h c :=
    ⟨i 0, i 1, i 2, i 3, eq_ix4 i⟩
  rw [v20_at]
  have hz : (fun k => val_main_v19 (F := Ideal) x0 x1 x2 x3 x4 x5 (ix4 d b h k))
      = Cert.PairScore.logits (Cert.PairScore.score (fun e => Cert.PairScore.hidden (Cert.PairScore.depProj x0 x2 d b e)
          (Cert.PairScore.headProj x1 x2 h b e) (x3 (ix1 e))) x4 x5) :=
    funext fun k => v19_at x0 x1 x2 x3 x4 x5 d b h k
  rw [hz]
  rfl

end Cert.ReferenceIdeal.RefValue

end
-- ==== Proof.lean ====
/-
  The certificate of the pairwise relation scorer: a Pallas program of three kernels against its jnp reference, over the
  extended reals.

  The kernel program projects the dependents' states and the heads' states with the two column halves of one weight matrix (two
  single-point matrix-product kernels, each the product of its rows with the TRANSPOSED weight block into a zero accumulator), and a
  third kernel, over a 6 × 6 grid of 16 × 16 blocks of (dependent, head) pairs, adds the two projections and the bias, rectifies,
  scores the 128 relations by a second matrix product plus a bias, puts a zero logit in front and takes the log-softmax of the 129.
  The reference computes the same by two einsums, a broadcast sum, relu, a third einsum, a concatenation and jax's log_softmax.
  At the extended reals a change of float format is the identity, a matrix product into a zero accumulator and a dot_general
  are the same finite sum, and a lane reduction and a host reduction are the same finite sum or the same finite fold of max; the
  grouping (dep + head) + bias, the argument order of the two maxima and the two float words (zero, −∞) agree literally. So both
  results are ONE function of the six argument arrays, `Cert.PairScore.result` (Proof/Spec.lean), index by index; no law is used
  that needs the inputs finite, so the precondition is never opened.

  The frames of the two kernel programs are the generated ones; the reference's frame is its run with the result dropped; the ideal
  pass rewrote nothing, so `preserves` is trivial. The value claim: the kernel's run with its result array named
  (Proof/KernelRun.lean), that array read region by region (Proof/ProjRegion.lean, Proof/FusedRegion.lean over the stored values
  Proof/ProjPayload.lean, Proof/FusedPayload.lean; the host stretches between them Proof/Fold.lean; assembled in
  Proof/KernelValue.lean), and the reference's run read one operation at a time (Proof/RefRun.lean, Proof/RefRead.lean,
  Proof/RefValue.lean).
-/
import proofs.«164323_j91199335563522_1_alg».proof.Defs
import proofs.«164323_j91199335563522_1_alg».proof.Proof.Gen.Kernel
import proofs.«164323_j91199335563522_1_alg».proof.Proof.Gen.Kernel.Skeleton
import proofs.«164323_j91199335563522_1_alg».proof.Proof.Gen.Kernel.Launch
import proofs.«164323_j91199335563522_1_alg».proof.Proof.Gen.Kernel.Points
import proofs.«164323_j91199335563522_1_alg».proof.Proof.Gen.Kernel.Frame
import proofs.«164323_j91199335563522_1_alg».proof.Proof.Gen.KernelIdeal
import proofs.«164323_j91199335563522_1_alg».proof.Proof.Gen.KernelIdeal.Skeleton
import proofs.«164323_j91199335563522_1_alg».proof.Proof.Gen.KernelIdeal.Launch
import proofs.«164323_j91199335563522_1_alg».proof.Proof.Gen.KernelIdeal.Points
import proofs.«164323_j91199335563522_1_alg».proof.Proof.Gen.KernelIdeal.Frame
import proofs.«164323_j91199335563522_1_alg».proof.Proof.Gen.ReferenceIdeal
import proofs.«164323_j91199335563522_1_alg».proof.Proof.Gen.Pre_finite_inputs
import proofs.«164323_j91199335563522_1_alg».proof.Proof.KernelValue
import proofs.«164323_j91199335563522_1_alg».proof.Proof.RefRun
import proofs.«164323_j91199335563522_1_alg».proof.Proof.RefRead
import proofs.«164323_j91199335563522_1_alg».proof.Proof.RefValue
import Idealize.ShloMosaic.Adequacy
import Idealize.ShloMosaic.Init

noncomputable section

namespace Cert.Proof

open Idealize.ShloMosaic Idealize.SL.Sem

/-- The word-level kernel program runs and leaves its arguments as launched: the generated frame. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its arguments as launched: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories agreeing on the six arguments both programs end with the specification's array of them. -/
theorem algebraic : Cert.algebraic_KernelIdeal_ReferenceIdeal := by
  intro m ρ m' ρ' _ hagree
  refine ⟨fun c => Cert.PairScore.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.KernelIdeal.Val.run m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5⟩ := hagree c
  rw [Cert.ReferenceIdeal.ReadP.val_main_v20_eq, Cert.ReferenceIdeal.RefValue.ref_result, e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
